-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S4x1024 .f32) (main_arg5 : FVec F S4x1024x1024 .f32) (main_arg6 : FVec F S512x1024 .f32) (main_arg7 : FVec F S512 .f32) (main_v13 : IVec S_ 1) (main_v16 : IVec S4x1024x512 1) : IVec S_ 1 :=
  let main_c_5 : IVec S_ 1 := constantI S_ 1 1#1
  let main_v17 : IVec S_ 1 := (fun x v => Host.reduce IntOp.andi x v reducesTo_S4x1024x512_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x1024 .f32) (main_arg2 : FVec F S16384x1024 .f32) (main_arg3 : FVec F S4x1024x512 .f32) (main_arg4 : FVec F S4x1024 .f32) (main_arg5 : FVec F S4x1024x1024 .f32) (main_arg6 : FVec F S512x1024 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x512 .f32 := Host.absf main_arg3
  let main_cst_4 : FVec F S_ .f32 := constant S_ .f32 0x7F800000#32
  let main_v15 : FVec F S4x1024x512 .f32 := broadcastInDim S4x1024x512 ![] bcast_S_S4x1024x512 main_cst_4
  let main_v16 : IVec S4x1024x512 1 := cmpf .olt main_v14 main_v15
  fn_part1 (F := F) main_arg4 main_arg5 main_arg6 main_arg7 main_v13 main_v16
-- ==== Kernel.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S4096x512 : Shape := ⟨2, ![4096, 512]⟩
abbrev S512x4096 : Shape := ⟨2, ![512, 4096]⟩
abbrev S4096x1024 : Shape := ⟨2, ![4096, 1024]⟩
abbrev S1024x4096 : Shape := ⟨2, ![1024, 4096]⟩
abbrev S1x4096 : Shape := ⟨2, ![1, 4096]⟩
abbrev S1024x512 : Shape := ⟨2, ![1024, 512]⟩
abbrev S1x512 : Shape := ⟨2, ![1, 512]⟩
abbrev S1024x1024 : Shape := ⟨2, ![1024, 1024]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 20
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4x1024x512, .f32⟩
  | .hbm, ⟨4, _⟩ => ⟨S4x1024, .f32⟩
  | .hbm, ⟨5, _⟩ => ⟨S4x1024x1024, .f32⟩
  | .hbm, ⟨6, _⟩ => ⟨S512x1024, .f32⟩
  | .hbm, ⟨7, _⟩ => ⟨S512, .f32⟩
  | .hbm, ⟨8, _⟩ => ⟨S4096x512, .f32⟩
  | .hbm, ⟨9, _⟩ => ⟨S512x4096, .f32⟩
  | .hbm, ⟨10, _⟩ => ⟨S512x4096, .bf16⟩
  | .hbm, ⟨11, _⟩ => ⟨S4096x1024, .f32⟩
  | .hbm, ⟨12, _⟩ => ⟨S1024x4096, .f32⟩
  | .hbm, ⟨13, _⟩ => ⟨S1024x4096, .bf16⟩
  | .hbm, ⟨14, _⟩ => ⟨S1x4096, .f32⟩
  | .hbm, ⟨15, _⟩ => ⟨S1024x512, .f32⟩
  | .hbm, ⟨16, _⟩ => ⟨S1024x512, .bf16⟩
  | .hbm, ⟨17, _⟩ => ⟨S1x512, .f32⟩
  | .hbm, ⟨18, _⟩ => ⟨S16384x512, .f32⟩
  | .hbm, ⟨19, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S1024x512, .bf16⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .f32⟩
  | .local _ .vmem, ⟨14, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x1024x512_S4096x512 : S4x1024x512.ShapeCasts S4096x512
  transposes_S4096x512_S512x4096_1_0 : S4096x512.Transposes [1, 0] S512x4096
  bitsLt_bf16_f32 : FTy.bits .bf16 < FTy.bits .f32
  shapeCasts_S4x1024x1024_S4096x1024 : S4x1024x1024.ShapeCasts S4096x1024
  transposes_S4096x1024_S1024x4096_1_0 : S4096x1024.Transposes [1, 0] S1024x4096
  shapeCasts_S4x1024_S1x4096 : S4x1024.ShapeCasts S1x4096
  transposes_S512x1024_S1024x512_1_0 : S512x1024.Transposes [1, 0] S1024x512
  shapeCasts_S512_S1x512 : S512.ShapeCasts S1x512
  inb_S1024x512_S256x512_0_0 : ∀ a, (![0, 0] : Fin 2 → Nat) a + S256x512.size a ≤ S1024x512.size a
  h_S256x512 : 0 < S256x512.numel
  inb_S1024x1024_S256x1024_0_0 : ∀ a, (![0, 0] : Fin 2 → Nat) a + S256x1024.size a ≤ S1024x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S1024x512_S256x512_256_0 : ∀ a, (![256, 0] : Fin 2 → Nat) a + S256x512.size a ≤ S1024x512.size a
  inb_S1024x1024_S256x1024_256_0 : ∀ a, (![256, 0] : Fin 2 → Nat) a + S256x1024.size a ≤ S1024x1024.size a
  inb_S1024x512_S256x512_512_0 : ∀ a, (![512, 0] : Fin 2 → Nat) a + S256x512.size a ≤ S1024x512.size a
  inb_S1024x1024_S256x1024_512_0 : ∀ a, (![512, 0] : Fin 2 → Nat) a + S256x1024.size a ≤ S1024x1024.size a
  inb_S1024x512_S256x512_768_0 : ∀ a, (![768, 0] : Fin 2 → Nat) a + S256x512.size a ≤ S1024x512.size a
  inb_S1024x1024_S256x1024_768_0 : ∀ a, (![768, 0] : Fin 2 → Nat) a + S256x1024.size a ≤ S1024x1024.size a
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .f32 = 32 ∨ (Rect.block (s := S16384x1024) S1024x1024.size (cc0_transform_9 i) (hinb0_9 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩
abbrev S1024x512 : Shape := ⟨2, ![1024, 512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4x1024x512, .f32⟩
  | .hbm, ⟨4, _⟩ => ⟨S4x1024, .f32⟩
  | .hbm, ⟨5, _⟩ => ⟨S4x1024x1024, .f32⟩
  | .hbm, ⟨6, _⟩ => ⟨S512x1024, .f32⟩
  | .hbm, ⟨7, _⟩ => ⟨S512, .f32⟩
  | .hbm, ⟨8, _⟩ => ⟨S4x1024x16384, .f32⟩
  | .hbm, ⟨9, _⟩ => ⟨S4x16384x1024, .f32⟩
  | .hbm, ⟨10, _⟩ => ⟨S4x1x1024, .f32⟩
  | .hbm, ⟨11, _⟩ => ⟨S4x16384x1024, .f32⟩
  | .hbm, ⟨12, _⟩ => ⟨S4x16384x1024, .f32⟩
  | .hbm, ⟨13, _⟩ => ⟨S4x1024x16384, .f32⟩
  | .hbm, ⟨14, _⟩ => ⟨S4x16384x1024, .f32⟩
  | .hbm, ⟨15, _⟩ => ⟨S4x16384x1024, .f32⟩
  | .hbm, ⟨16, _⟩ => ⟨S1x16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1x16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S1x16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S1x16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1024x512, .f32⟩
  | .hbm, ⟨55, _⟩ => ⟨S16384x512, .f32⟩
  | .hbm, ⟨56, _⟩ => ⟨S1x512, .f32⟩
  | .hbm, ⟨57, _⟩ => ⟨S16384x512, .f32⟩
  | .hbm, ⟨58, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S4x1024x512_S16384x512_S4x1024x16384_2_1_01_0_n_n_wf : DotDims.WF S4x1024x512 S16384x512 S4x1024x16384 [2] [1] [0, 1] [0] [] []
  dot_S4x1024x1024_S16384x1024_S4x1024x16384_2_1_01_0_n_n_wf : DotDims.WF S4x1024x1024 S16384x1024 S4x1024x16384 [2] [1] [0, 1] [0] [] []
  dot_S16384x1024_S1024x512_S16384x512_1_0_0_1_n_n_wf : DotDims.WF S16384x1024 S1024x512 S16384x512 [1] [0] [0] [1] [] []

variable [Facts₀]

def dot_S4x1024x512_S16384x512_S4x1024x16384_2_1_01_0_n_n : DotDims S4x1024x512 S16384x512 S4x1024x16384 where
  lhsContracting := [2]
  rhsContracting := [1]
  lhsNonContracting := [0, 1]
  rhsNonContracting := [0]
  lhsBatch := []
  rhsBatch := []
  wf := dot_S4x1024x512_S16384x512_S4x1024x16384_2_1_01_0_n_n_wf
def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Spec.lean ====
/-
  One step of an LSTM cell, as a function of the argument arrays, over the extended reals.

  For a batch row `r`, a gate `g ∈ {0, 1, 2, 3}` (input, output, forget, candidate) and a hidden unit `k` the gate's
  pre-activation is
      a g r k = ∑ i, X[r, i] · Wx[g, k, i]  +  ∑ j, H[r, j] · Wh[g, k, j]  +  Bx[g, k],
  the new hidden state is
      hn r k = σ(a 1 r k) · tanh( σ(a 0 r k) · tanh(a 3 r k) + σ(a 2 r k) · C[r, k] ),
  and the projected output is
      out r o = ∑ k, hn r k · Wout[o, k]  +  Bout[o].
  `σ` is the logistic function `1 / (1 + e^(-x))` and `tanh` the hyperbolic tangent, both extended to ±∞.
  Only commutativity and associativity of `+` and `·` on the extended reals are used to relate two groupings of the
  pre-activation, so no finiteness is needed.
-/
import Idealize.ShloMosaic.PureOps.Ideal
import Idealize.ShloMosaic.Lib.ValueIdx

noncomputable section

open scoped BigOperators

namespace Cert.Lstm

open Idealize.ShloMosaic Idealize.ShloMosaic.ValueIdx

/-- A rank-2 array of extended reals. -/
abbrev Arr2 (n0 n1 : Nat) : Type := (⟨2, ![n0, n1]⟩ : Shape).Idx → EReal
/-- A rank-3 array of extended reals. -/
abbrev Arr3 (n0 n1 n2 : Nat) : Type := (⟨3, ![n0, n1, n2]⟩ : Shape).Idx → EReal
/-- A rank-1 array of extended reals. -/
abbrev Arr1 (n0 : Nat) : Type := (⟨1, ![n0]⟩ : Shape).Idx → EReal

/-- The cell's update of one hidden unit from its four gate pre-activations `a0 … a3` (input, output, forget,
    candidate) and the old cell state `c`:  σ(a1) · tanh(σ(a0) · tanh(a3) + σ(a2) · c). -/
def cell (a0 a1 a2 a3 c : EReal) : EReal :=
  Ideal.logistic a1 * Ideal.tanh (Ideal.logistic a0 * Ideal.tanh a3 + Ideal.logistic a2 * c)

/-- A pre-activation from two rows of products and a bias:  ∑ xᵢ·wᵢ + ∑ hⱼ·vⱼ + b. -/
def affine2 (x w : Fin 512 → EReal) (h v : Fin 1024 → EReal) (b : EReal) : EReal :=
  (∑ i : Fin 512, x i * w i) + (∑ j : Fin 1024, h j * v j) + b

/-- The other grouping and order of factors, (∑ wᵢ·xᵢ + b) + ∑ vⱼ·hⱼ, is the same extended real. -/
theorem affine2_regroup (x w : Fin 512 → EReal) (h v : Fin 1024 → EReal) (b : EReal) :
    (∑ i : Fin 512, w i * x i) + b + (∑ j : Fin 1024, v j * h j) = affine2 x w h v b := by
  unfold affine2
  rw [add_right_comm]
  congr 2
  · exact Finset.sum_congr rfl fun i _ => mul_comm _ _
  · exact Finset.sum_congr rfl fun j _ => mul_comm _ _

/-- Gate `g`'s pre-activation at batch row `r` and hidden unit `k`. -/
def gatePre (X : Arr2 16384 512) (H : Arr2 16384 1024) (Wx : Arr3 4 1024 512) (Bx : Arr2 4 1024) (Wh : Arr3 4 1024 1024)
    (g : Fin 4) (r : Fin 16384) (k : Fin 1024) : EReal :=
  affine2 (fun i => X (ix2 r i)) (fun i => Wx (ix3 g k i)) (fun j => H (ix2 r j)) (fun j => Wh (ix3 g k j)) (Bx (ix2 g k))

/-- The new hidden state at batch row `r`, hidden unit `k`. -/
def hnAt (X : Arr2 16384 512) (H C : Arr2 16384 1024) (Wx : Arr3 4 1024 512) (Bx : Arr2 4 1024) (Wh : Arr3 4 1024 1024)
    (r : Fin 16384) (k : Fin 1024) : EReal :=
  cell (gatePre X H Wx Bx Wh 0 r k) (gatePre X H Wx Bx Wh 1 r k) (gatePre X H Wx Bx Wh 2 r k) (gatePre X H Wx Bx Wh 3 r k)
    (C (ix2 r k))

/-- The new hidden state as an array. -/
def hnArr (X : Arr2 16384 512) (H C : Arr2 16384 1024) (Wx : Arr3 4 1024 512) (Bx : Arr2 4 1024) (Wh : Arr3 4 1024 1024) :
    Arr2 16384 1024 :=
  fun i => hnAt X H C Wx Bx Wh (i 0) (i 1)

/-- The projected output as an array:  out[r, o] = ∑ k, hn[r, k] · Wout[o, k] + Bout[o]. -/
def outArr (X : Arr2 16384 512) (H C : Arr2 16384 1024) (Wx : Arr3 4 1024 512) (Bx : Arr2 4 1024) (Wh : Arr3 4 1024 1024)
    (Wout : Arr2 512 1024) (Bout : Arr1 512) : Arr2 16384 512 :=
  fun i => (∑ k : Fin 1024, hnAt X H C Wx Bx Wh (i 0) k * Wout (ix2 (i 1) k)) + Bout (ix1 (i 1))

/-- The bit pattern of the single-precision `1.0` denotes the extended real `1`. -/
theorem ofBits_one_f32 : Ideal.ofBits .f32 0x3F800000#32 = 1 := by
  simp [Ideal.ofBits, Ideal.ieee, -EReal.coe_mul]; norm_num

/-- The logistic function spelt with a division, an addition, an exponential and a negation is the logistic function. -/
theorem logistic_spelt (x : EReal) : Ideal.div 1 (1 + Ideal.exp (-x)) = Ideal.logistic x := rfl

end Cert.Lstm

end
-- ==== Proof.Chain.lean ====
/-
  One row-chain of the cell, as the kernel body computes it on blocks.

  The body handles its 1024 batch rows in four chains of 256 rows. Every chain is the same function of what it loads:
  with x [256,512], h and c [256,1024] the chain's rows of the three batch inputs, wx [512,4096] and wh [1024,4096] the two
  weight matrices laid out with the four gates side by side along the columns, b [1,4096] the bias row, the gate matrix is
      G[p, n] = ∑ᵢ x[p,i]·wx[i,n] + ∑ⱼ h[p,j]·wh[j,n] + b[0,n],
  the chain's new hidden rows are, with the columns of gate g at n = g·1024 + q,
      hn[p, q] = σ(G[p,1024+q]) · tanh(σ(G[p,q]) · tanh(G[p,3072+q]) + σ(G[p,2048+q]) · c[p,q]),
  and its output rows are  out[p, o] = ∑ₖ hn[p,k]·wo[k,o] + bo[0,o].
  The narrowing of the matrix products' operands to a shorter float format is the identity on extended reals, and a
  matrix product into a zero accumulator is the plain sum over the contracted index.
-/
import proofs.«141019_g22874995818703_feedfinal_596_25_alg».proof.Proof.Gen.KernelIdeal.Skeleton
import proofs.«141019_g22874995818703_feedfinal_596_25_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chain

open Cert.KernelIdeal Cert.KernelIdeal.Gen Idealize.ShloMosaic Idealize.ShloMosaic.ValueIdx

/-! ## The four chains are one function -/

section OneFunction
variable {F : FTy → Type} [FloatOps F]

/-- The second chain's hidden rows are the first chain's function of its own loads. -/
theorem hidden1_eq : k0_pay6 (F := F) = k0_pay2 (F := F) := rfl
/-- So are the third chain's … -/
theorem hidden2_eq : k0_pay9 (F := F) = k0_pay2 (F := F) := rfl
/-- … and the fourth's. -/
theorem hidden3_eq : k0_pay12 (F := F) = k0_pay2 (F := F) := rfl

/-- The first chain's output rows: the projection of its hidden rows plus the bias row, as the last chain spells it. -/
theorem output0_eq (x : Vec F S256x512 .f32) (h : Vec F S256x1024 .f32) (wx : Vec F S512x4096 .bf16) (wh : Vec F S1024x4096 .bf16)
    (b : Vec F S1x4096 .f32) (c : Vec F S256x1024 .f32) (wo : Vec F S1024x512 .bf16) (bo : Vec F S1x512 .f32) :
    k0_pay5 (k0_pay3 x h wx wh b c wo) (k0_pay4 bo) = k0_pay1 (k0_pay2 x h wx wh b c) wo bo := rfl
/-- The second chain's output rows likewise. -/
theorem output1_eq (x : Vec F S256x512 .f32) (h : Vec F S256x1024 .f32) (wx : Vec F S512x4096 .bf16) (wh : Vec F S1024x4096 .bf16)
    (b : Vec F S1x4096 .f32) (c : Vec F S256x1024 .f32) (wo : Vec F S1024x512 .bf16) (bo : Vec F S1x512 .f32) :
    k0_pay8 (k0_pay7 x h wx wh b c wo) bo = k0_pay1 (k0_pay2 x h wx wh b c) wo bo := rfl
/-- The third chain's output rows likewise. -/
theorem output2_eq (x : Vec F S256x512 .f32) (h : Vec F S256x1024 .f32) (wx : Vec F S512x4096 .bf16) (wh : Vec F S1024x4096 .bf16)
    (b : Vec F S1x4096 .f32) (c : Vec F S256x1024 .f32) (wo : Vec F S1024x512 .bf16) (bo : Vec F S1x512 .f32) :
    k0_pay11 (k0_pay10 x h wx wh b c) wo bo = k0_pay1 (k0_pay2 x h wx wh b c) wo bo := rfl

end OneFunction

/-! ## The three matrix products at an index -/

theorem lhs_xw_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_xw_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_xw_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_xw_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The input rows times the input weights, into zero: the sum over the 512 input features. -/
theorem matmul_xw_apply (l : FVec Ideal S256x512 .bf16) (r : FVec Ideal S512x4096 .bf16) (p : Fin 256) (n : Fin 4096) :
    matmul dot_S256x512_S512x4096_S256x4096_1_0_0_1_n_n none l r (constant (F := Ideal) S256x4096 .f32 0x00000000#32) (ix2 p n)
      = ∑ k : Fin 512, l (ix2 p k) * r (ix2 k n) := by
  simp only [matmul]
  rw [Ideal.matmul_constant_zero_apply, ← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p n) ((contrEquiv1 dot_S256x512_S512x4096_S256x4096_1_0_0_1_n_n 512 rfl rfl).symm k) = ix2 p k := funext fun a => Fin.ext (by
    match a with
    | ⟨0, _⟩ => exact lhs_xw_0 _ _
    | ⟨1, _⟩ => exact (lhs_xw_1 _ _).trans hk)
  have er : dot_S256x512_S512x4096_S256x4096_1_0_0_1_n_n.rhsIdx (ix2 p n) ((contrEquiv1 dot_S256x512_S512x4096_S256x4096_1_0_0_1_n_n 512 rfl rfl).symm k) = ix2 k n := funext fun a => Fin.ext (by
    match a with
    | ⟨0, _⟩ => exact (rhs_xw_0 _ _).trans hk
    | ⟨1, _⟩ => exact rhs_xw_1 _ _)
  rw [el, er]

theorem lhs_hw_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_hw_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_hw_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_hw_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The hidden rows times the recurrent weights, into zero: the sum over the 1024 hidden units. -/
theorem matmul_hw_apply (l : FVec Ideal S256x1024 .bf16) (r : FVec Ideal S1024x4096 .bf16) (p : Fin 256) (n : Fin 4096) :
    matmul dot_S256x1024_S1024x4096_S256x4096_1_0_0_1_n_n none l r (constant (F := Ideal) S256x4096 .f32 0x00000000#32) (ix2 p n)
      = ∑ k : Fin 1024, l (ix2 p k) * r (ix2 k n) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p n) ((contrEquiv1 dot_S256x1024_S1024x4096_S256x4096_1_0_0_1_n_n 1024 rfl rfl).symm k) = ix2 p k := funext fun a => Fin.ext (by
    match a with
    | ⟨0, _⟩ => exact lhs_hw_0 _ _
    | ⟨1, _⟩ => exact (lhs_hw_1 _ _).trans hk)
  have er : dot_S256x1024_S1024x4096_S256x4096_1_0_0_1_n_n.rhsIdx (ix2 p n) ((contrEquiv1 dot_S256x1024_S1024x4096_S256x4096_1_0_0_1_n_n 1024 rfl rfl).symm k) = ix2 k n := funext fun a => Fin.ext (by
    match a with
    | ⟨0, _⟩ => exact (rhs_hw_0 _ _).trans hk
    | ⟨1, _⟩ => exact rhs_hw_1 _ _)
  rw [el, er]

theorem lhs_ow_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_ow_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs_ow_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs_ow_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- The new hidden rows times the output weights, into zero: the sum over the 1024 hidden units. -/
theorem matmul_ow_apply (l : FVec Ideal S256x1024 .bf16) (r : FVec Ideal S1024x512 .bf16) (p : Fin 256) (n : Fin 512) :
    matmul dot_S256x1024_S1024x512_S256x512_1_0_0_1_n_n none l r (constant (F := Ideal) S256x512 .f32 0x00000000#32) (ix2 p n)
      = ∑ k : Fin 1024, l (ix2 p k) * r (ix2 k n) := by
  simp only [matmul]
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p n) ((contrEquiv1 dot_S256x1024_S1024x512_S256x512_1_0_0_1_n_n 1024 rfl rfl).symm k) = ix2 p k := funext fun a => Fin.ext (by
    match a with
    | ⟨0, _⟩ => exact lhs_ow_0 _ _
    | ⟨1, _⟩ => exact (lhs_ow_1 _ _).trans hk)
  have er : dot_S256x1024_S1024x512_S256x512_1_0_0_1_n_n.rhsIdx (ix2 p n) ((contrEquiv1 dot_S256x1024_S1024x512_S256x512_1_0_0_1_n_n 1024 rfl rfl).symm k) = ix2 k n := funext fun a => Fin.ext (by
    match a with
    | ⟨0, _⟩ => exact (rhs_ow_0 _ _).trans hk
    | ⟨1, _⟩ => exact rhs_ow_1 _ _)
  rw [el, er]

/-! ## The gate matrix, the hidden rows and the output rows at an index -/

/-- Column `n` of the gate matrix at row `p`, from arrays of `R` rows:  ∑ᵢ x[p,i]·wx[i,n] + ∑ⱼ h[p,j]·wh[j,n] + b[0,n]. -/
def gateAt {R : Nat} (x : (⟨2, ![R, 512]⟩ : Shape).Idx → EReal) (h : (⟨2, ![R, 1024]⟩ : Shape).Idx → EReal)
    (wx : (⟨2, ![512, 4096]⟩ : Shape).Idx → EReal) (wh : (⟨2, ![1024, 4096]⟩ : Shape).Idx → EReal)
    (b : (⟨2, ![1, 4096]⟩ : Shape).Idx → EReal) (p : Fin R) (n : Fin 4096) : EReal :=
  Cert.Lstm.affine2 (fun i => x (ix2 p i)) (fun i => wx (ix2 i n)) (fun j => h (ix2 p j)) (fun j => wh (ix2 j n)) (b (ix2 (0 : Fin 1) n))

/-- The new hidden state at row `p`, unit `q`, from arrays of `R` rows: the cell's update of the four gates' columns
    `q`, `1024 + q`, `2048 + q`, `3072 + q` and the old cell state. -/
def hiddenAt {R : Nat} (x : (⟨2, ![R, 512]⟩ : Shape).Idx → EReal) (h c : (⟨2, ![R, 1024]⟩ : Shape).Idx → EReal)
    (wx : (⟨2, ![512, 4096]⟩ : Shape).Idx → EReal) (wh : (⟨2, ![1024, 4096]⟩ : Shape).Idx → EReal)
    (b : (⟨2, ![1, 4096]⟩ : Shape).Idx → EReal) (p : Fin R) (q : Fin 1024) : EReal :=
  Cert.Lstm.cell (gateAt x h wx wh b p ⟨q.val, by omega⟩) (gateAt x h wx wh b p ⟨1024 + q.val, by omega⟩)
    (gateAt x h wx wh b p ⟨2048 + q.val, by omega⟩) (gateAt x h wx wh b p ⟨3072 + q.val, by omega⟩) (c (ix2 p q))

/-- The gate matrix the body computes, as one vector. -/
def gates (x : FVec Ideal S256x512 .f32) (h : FVec Ideal S256x1024 .f32) (wx : FVec Ideal S512x4096 .bf16)
    (wh : FVec Ideal S1024x4096 .bf16) (b : FVec Ideal S1x4096 .f32) : FVec Ideal S256x4096 .f32 :=
  addf (addf (matmul dot_S256x512_S512x4096_S256x4096_1_0_0_1_n_n none (truncf .bf16 x bitsLt_bf16_f32) (shapeCast S512x4096 wx shapeCasts_S512x4096_S512x4096) (constant S256x4096 .f32 0x00000000#32))
      (matmul dot_S256x1024_S1024x4096_S256x4096_1_0_0_1_n_n none (truncf .bf16 h bitsLt_bf16_f32) (shapeCast S1024x4096 wh shapeCasts_S1024x4096_S1024x4096) (constant S256x4096 .f32 0x00000000#32)))
    (broadcastTo S256x4096 (shapeCast S1x4096 b shapeCasts_S1x4096_S1x4096) broadcasts_S1x4096_S256x4096)

/-- Read at an index it is the two sums and the bias. -/
theorem gates_apply (x : FVec Ideal S256x512 .f32) (h : FVec Ideal S256x1024 .f32) (wx : FVec Ideal S512x4096 .bf16)
    (wh : FVec Ideal S1024x4096 .bf16) (b : FVec Ideal S1x4096 .f32) (p : Fin 256) (n : Fin 4096) :
    gates x h wx wh b (ix2 p n) = gateAt x h wx wh b p n := by
  unfold gates
  rw [shapeCast_self, shapeCast_self, shapeCast_self]
  show (matmul dot_S256x512_S512x4096_S256x4096_1_0_0_1_n_n none (truncf .bf16 x bitsLt_bf16_f32) wx (constant (F := Ideal) S256x4096 .f32 0x00000000#32) (ix2 p n)
      + matmul dot_S256x1024_S1024x4096_S256x4096_1_0_0_1_n_n none (truncf .bf16 h bitsLt_bf16_f32) wh (constant (F := Ideal) S256x4096 .f32 0x00000000#32) (ix2 p n))
      + broadcastTo S256x4096 b broadcasts_S1x4096_S256x4096 (ix2 p n) = _
  rw [matmul_xw_apply, matmul_hw_apply, broadcastTo_1b_ab_apply]
  rfl

/-- The chain's hidden rows at an index. -/
theorem hidden_apply (x : FVec Ideal S256x512 .f32) (h : FVec Ideal S256x1024 .f32) (wx : FVec Ideal S512x4096 .bf16)
    (wh : FVec Ideal S1024x4096 .bf16) (b : FVec Ideal S1x4096 .f32) (c : FVec Ideal S256x1024 .f32) (p : Fin 256) (q : Fin 1024) :
    k0_pay2 (F := Ideal) x h wx wh b c (ix2 p q) = hiddenAt x h c wx wh b p q := by
  show FloatOps.mulf (FloatOps.logistic (extractStridedSlice S256x1024 ![0, 1024] (gates x h wx wh b) slices_S256x4096_o0_1024_S256x1024 (ix2 p q)))
      (FloatOps.tanh (FloatOps.addf
        (FloatOps.mulf (FloatOps.logistic (extractStridedSlice S256x1024 ![0, 0] (gates x h wx wh b) slices_S256x4096_o0_0_S256x1024 (ix2 p q)))
          (FloatOps.tanh (extractStridedSlice S256x1024 ![0, 3072] (gates x h wx wh b) slices_S256x4096_o0_3072_S256x1024 (ix2 p q))))
        (FloatOps.mulf (FloatOps.logistic (extractStridedSlice S256x1024 ![0, 2048] (gates x h wx wh b) slices_S256x4096_o0_2048_S256x1024 (ix2 p q)))
          (c (ix2 p q))))) = _
  rw [slice2_axis1_apply 1024 (gates x h wx wh b) _ p q ⟨1024 + q.val, by omega⟩ rfl,
    slice2_axis1_apply 0 (gates x h wx wh b) _ p q ⟨q.val, by omega⟩ (by simp),
    slice2_axis1_apply 3072 (gates x h wx wh b) _ p q ⟨3072 + q.val, by omega⟩ rfl,
    slice2_axis1_apply 2048 (gates x h wx wh b) _ p q ⟨2048 + q.val, by omega⟩ rfl,
    gates_apply, gates_apply, gates_apply, gates_apply]
  rfl

/-- The chain's output rows at an index: the hidden rows times the output weights plus the bias row. -/
theorem output_apply (hn : FVec Ideal S256x1024 .f32) (wo : FVec Ideal S1024x512 .bf16) (bo : FVec Ideal S1x512 .f32) (p : Fin 256) (o : Fin 512) :
    k0_pay1 (F := Ideal) hn wo bo (ix2 p o) = (∑ k : Fin 1024, hn (ix2 p k) * wo (ix2 k o)) + bo (ix2 (0 : Fin 1) o) := by
  show matmul dot_S256x1024_S1024x512_S256x512_1_0_0_1_n_n none (truncf .bf16 hn bitsLt_bf16_f32) (shapeCast S1024x512 wo shapeCasts_S1024x512_S1024x512) (constant (F := Ideal) S256x512 .f32 0x00000000#32) (ix2 p o)
      + broadcastTo S256x512 (shapeCast S1x512 bo shapeCasts_S1x512_S1x512) broadcasts_S1x512_S256x512 (ix2 p o) = _
  rw [shapeCast_self, shapeCast_self, matmul_ow_apply, broadcastTo_1b_ab_apply]
  rfl

end Cert.KernelIdeal.Chain

end
-- ==== Proof.Blocks.lean ====
/-
  What the kernel body leaves in its two output blocks, element by element.

  At a grid point the body sees 1024 batch rows: x0 [1024,512], x1 and x2 [1024,1024] are the blocks of the input, the
  hidden state and the cell state, x3 … x7 the whole weight, bias and projection arrays. It stores each output block in four
  pieces of 256 rows, chain by chain; each piece is the chain's function (Chain) of the same 256 rows of x0, x1, x2. Hence
  element (r, q) of the hidden-state block is the cell's update at row r of the block, and element (r, o) of the output
  block is the projection of that row — whichever piece (r, ·) falls into: the pieces tile the block, and a piece's row p is
  the block's row (piece offset + p).
-/
import proofs.«141019_g22874995818703_feedfinal_596_25_alg».proof.Proof.Gen.KernelIdeal.Frame
import proofs.«141019_g22874995818703_feedfinal_596_25_alg».proof.Proof.Chain

set_option maxRecDepth 16384

noncomputable section

open scoped BigOperators

namespace Cert.KernelIdeal.Block

open Cert.KernelIdeal Cert.KernelIdeal.Gen Cert.KernelIdeal.Chain Idealize.ShloMosaic Idealize.ShloMosaic.ValueIdx

/-- The projected output at row `p`, output unit `j`, from arrays of `R` rows:  ∑ₖ hn[p,k]·wo[k,j] + bo[0,j]. -/
def outputAt {R : Nat} (x : (⟨2, ![R, 512]⟩ : Shape).Idx → EReal) (h c : (⟨2, ![R, 1024]⟩ : Shape).Idx → EReal)
    (wx : (⟨2, ![512, 4096]⟩ : Shape).Idx → EReal) (wh : (⟨2, ![1024, 4096]⟩ : Shape).Idx → EReal)
    (b : (⟨2, ![1, 4096]⟩ : Shape).Idx → EReal) (wo : (⟨2, ![1024, 512]⟩ : Shape).Idx → EReal)
    (bo : (⟨2, ![1, 512]⟩ : Shape).Idx → EReal) (p : Fin R) (j : Fin 512) : EReal :=
  (∑ k : Fin 1024, hiddenAt x h c wx wh b p k * wo (ix2 k j)) + bo (ix2 (0 : Fin 1) j)

theorem zeros2 : (![0, 0] : Fin 2 → Nat) = fun _ => 0 := funext fun a => by fin_cases a <;> rfl

/-- A load of 256 rows starting at row `o` of a 1024-row block reads, at (p, i), the block at (o + p, i). -/
theorem ld_rows {C : Nat} {e : EltTy} (X : Vec Ideal ⟨2, ![1024, C]⟩ e) (o : Nat)
    (inb : ∀ a, (![o, 0] : Fin 2 → Nat) a + (⟨2, ![256, C]⟩ : Shape).size a ≤ (⟨2, ![1024, C]⟩ : Shape).size a)
    (p : Fin 256) (i : Fin C) (ho : o + p.val < 1024) :
    View.ld X (Rect.unit (s := ⟨2, ![1024, C]⟩) ![o, 0] (⟨2, ![256, C]⟩ : Shape).size inb) (ix2 p i) = X (ix2 ⟨o + p.val, ho⟩ i) := by
  show X _ = X _
  congr 1
  funext a
  apply Fin.ext
  match a with
  | ⟨0, _⟩ => show o + 1 * p.val = o + p.val; omega
  | ⟨1, _⟩ => show 0 + 1 * i.val = i.val; omega

section Rows
variable (x0 : Vec Ideal S1024x512 .f32) (x1 x2 : Vec Ideal S1024x1024 .f32) (x3 : Vec Ideal S512x4096 .bf16)
  (x4 : Vec Ideal S1024x4096 .bf16) (x5 : Vec Ideal S1x4096 .f32) (x6 : Vec Ideal S1024x512 .bf16) (x7 : Vec Ideal S1x512 .f32)
  (o : Nat) (inb0 : ∀ a, (![o, 0] : Fin 2 → Nat) a + S256x512.size a ≤ S1024x512.size a)
  (inb1 : ∀ a, (![o, 0] : Fin 2 → Nat) a + S256x1024.size a ≤ S1024x1024.size a)

/-- A gate column of 256 loaded rows is the block's gate column at the rows' place in the block. -/
theorem gateAt_ld (p : Fin 256) (n : Fin 4096) (ho : o + p.val < 1024) :
    gateAt (View.ld x0 (Rect.unit (s := S1024x512) ![o, 0] S256x512.size inb0)) (View.ld x1 (Rect.unit (s := S1024x1024) ![o, 0] S256x1024.size inb1))
        (View.ld x3 r0_2) (View.ld x4 r0_3) (View.ld x5 r0_4) p n
      = gateAt x0 x1 x3 x4 x5 ⟨o + p.val, ho⟩ n := by
  unfold gateAt
  have e3 : View.ld x3 r0_2 = x3 := View.ld_unit_zero zeros2 _ x3
  have e4 : View.ld x4 r0_3 = x4 := View.ld_unit_zero zeros2 _ x4
  have e5 : View.ld x5 r0_4 = x5 := View.ld_unit_zero zeros2 _ x5
  have e0 : (fun i : Fin 512 => View.ld x0 (Rect.unit (s := S1024x512) ![o, 0] S256x512.size inb0) (ix2 p i))
      = fun i => x0 (ix2 ⟨o + p.val, ho⟩ i) := funext fun i => ld_rows x0 o inb0 p i ho
  have e1 : (fun j : Fin 1024 => View.ld x1 (Rect.unit (s := S1024x1024) ![o, 0] S256x1024.size inb1) (ix2 p j))
      = fun j => x1 (ix2 ⟨o + p.val, ho⟩ j) := funext fun j => ld_rows x1 o inb1 p j ho
  rw [e3, e4, e5, e0, e1]

/-- The cell's update on 256 loaded rows is the block's at the rows' place in the block. -/
theorem hiddenAt_ld (p : Fin 256) (q : Fin 1024) (ho : o + p.val < 1024) :
    hiddenAt (View.ld x0 (Rect.unit (s := S1024x512) ![o, 0] S256x512.size inb0)) (View.ld x1 (Rect.unit (s := S1024x1024) ![o, 0] S256x1024.size inb1))
        (View.ld x2 (Rect.unit (s := S1024x1024) ![o, 0] S256x1024.size inb1)) (View.ld x3 r0_2) (View.ld x4 r0_3) (View.ld x5 r0_4) p q
      = hiddenAt x0 x1 x2 x3 x4 x5 ⟨o + p.val, ho⟩ q := by
  unfold hiddenAt
  rw [gateAt_ld x0 x1 x3 x4 x5 o inb0 inb1 p _ ho, gateAt_ld x0 x1 x3 x4 x5 o inb0 inb1 p _ ho,
    gateAt_ld x0 x1 x3 x4 x5 o inb0 inb1 p _ ho, gateAt_ld x0 x1 x3 x4 x5 o inb0 inb1 p _ ho, ld_rows x2 o inb1 p q ho]

/-- A chain's hidden rows, computed from 256 loaded rows, at an index. -/
theorem hidden_ld (p : Fin 256) (q : Fin 1024) (ho : o + p.val < 1024) :
    k0_pay2 (F := Ideal) (View.ld x0 (Rect.unit (s := S1024x512) ![o, 0] S256x512.size inb0)) (View.ld x1 (Rect.unit (s := S1024x1024) ![o, 0] S256x1024.size inb1))
        (View.ld x3 r0_2) (View.ld x4 r0_3) (View.ld x5 r0_4) (View.ld x2 (Rect.unit (s := S1024x1024) ![o, 0] S256x1024.size inb1)) (ix2 p q)
      = hiddenAt x0 x1 x2 x3 x4 x5 ⟨o + p.val, ho⟩ q := by
  rw [hidden_apply, hiddenAt_ld x0 x1 x2 x3 x4 x5 o inb0 inb1 p q ho]

/-- A chain's output rows, computed from 256 loaded rows, at an index. -/
theorem output_ld (p : Fin 256) (j : Fin 512) (ho : o + p.val < 1024) :
    k0_pay1 (F := Ideal) (k0_pay2 (View.ld x0 (Rect.unit (s := S1024x512) ![o, 0] S256x512.size inb0)) (View.ld x1 (Rect.unit (s := S1024x1024) ![o, 0] S256x1024.size inb1))
        (View.ld x3 r0_2) (View.ld x4 r0_3) (View.ld x5 r0_4) (View.ld x2 (Rect.unit (s := S1024x1024) ![o, 0] S256x1024.size inb1))) (View.ld x6 r0_5) (View.ld x7 r0_6) (ix2 p j)
      = outputAt x0 x1 x2 x3 x4 x5 x6 x7 ⟨o + p.val, ho⟩ j := by
  rw [output_apply]
  unfold outputAt
  have e6 : View.ld x6 r0_5 = x6 := View.ld_unit_zero zeros2 _ x6
  have e7 : View.ld x7 r0_6 = x7 := View.ld_unit_zero zeros2 _ x7
  rw [e6, e7]
  congr 1
  exact Finset.sum_congr rfl fun k _ => by rw [hidden_ld x0 x1 x2 x3 x4 x5 o inb0 inb1 p k ho]

end Rows

/-- Element (r, q) of the hidden-state block the body leaves: the cell's update at row r of the point's blocks. -/
theorem hidden_block (x0 : Vec Ideal S1024x512 .f32) (x1 x2 : Vec Ideal S1024x1024 .f32) (x3 : Vec Ideal S512x4096 .bf16)
    (x4 : Vec Ideal S1024x4096 .bf16) (x5 : Vec Ideal S1x4096 .f32) (x6 : Vec Ideal S1024x512 .bf16) (x7 : Vec Ideal S1x512 .f32)
    (y : S1024x1024.Idx) :
    out0_9 (F := Ideal) x0 x1 x2 x3 x4 x5 x6 x7 y = hiddenAt x0 x1 x2 x3 x4 x5 (y 0) (y 1) := by
  unfold out0_9
  refine View.canon_apply_of_pieces (Val := Elt Ideal) (e := .f32) (fun y : S1024x1024.Idx => hiddenAt x0 x1 x2 x3 x4 x5 (y 0) (y 1)) _ ?_ y (cover0_9 _ _ _ _ y)
  intro pc hpc x'
  simp only [List.mem_cons, List.not_mem_nil, or_false] at hpc
  rcases hpc with rfl | rfl | rfl | rfl
  · obtain ⟨p, q, rfl⟩ : ∃ (p : Fin 256) (q : Fin 1024), x' = ix2 p q := ⟨x' 0, x' 1, eq_ix2 x'⟩
    show k0_pay12 (F := Ideal) _ _ _ _ _ _ (ix2 p q) = hiddenAt x0 x1 x2 x3 x4 x5 ((r0_12.emb (ix2 p q)) 0) ((r0_12.emb (ix2 p q)) 1)
    rw [hidden3_eq, hidden_ld x0 x1 x2 x3 x4 x5 768 _ _ p q (by omega)]
    congr 1 <;> exact Fin.ext (by first | (show 768 + p.val = 768 + 1 * p.val; omega) | (show q.val = 0 + 1 * q.val; omega))
  · obtain ⟨p, q, rfl⟩ : ∃ (p : Fin 256) (q : Fin 1024), x' = ix2 p q := ⟨x' 0, x' 1, eq_ix2 x'⟩
    show k0_pay9 (F := Ideal) _ _ _ _ _ _ (ix2 p q) = hiddenAt x0 x1 x2 x3 x4 x5 ((r0_10.emb (ix2 p q)) 0) ((r0_10.emb (ix2 p q)) 1)
    rw [hidden2_eq, hidden_ld x0 x1 x2 x3 x4 x5 512 _ _ p q (by omega)]
    congr 1 <;> exact Fin.ext (by first | (show 512 + p.val = 512 + 1 * p.val; omega) | (show q.val = 0 + 1 * q.val; omega))
  · obtain ⟨p, q, rfl⟩ : ∃ (p : Fin 256) (q : Fin 1024), x' = ix2 p q := ⟨x' 0, x' 1, eq_ix2 x'⟩
    show k0_pay6 (F := Ideal) _ _ _ _ _ _ (ix2 p q) = hiddenAt x0 x1 x2 x3 x4 x5 ((r0_8.emb (ix2 p q)) 0) ((r0_8.emb (ix2 p q)) 1)
    rw [hidden1_eq, hidden_ld x0 x1 x2 x3 x4 x5 256 _ _ p q (by omega)]
    congr 1 <;> exact Fin.ext (by first | (show 256 + p.val = 256 + 1 * p.val; omega) | (show q.val = 0 + 1 * q.val; omega))
  · obtain ⟨p, q, rfl⟩ : ∃ (p : Fin 256) (q : Fin 1024), x' = ix2 p q := ⟨x' 0, x' 1, eq_ix2 x'⟩
    show k0_pay2 (F := Ideal) _ _ _ _ _ _ (ix2 p q) = hiddenAt x0 x1 x2 x3 x4 x5 ((r0_1.emb (ix2 p q)) 0) ((r0_1.emb (ix2 p q)) 1)
    rw [hidden_ld x0 x1 x2 x3 x4 x5 0 _ _ p q (by omega)]
    congr 1 <;> exact Fin.ext (by first | (show 0 + p.val = 0 + 1 * p.val; omega) | (show q.val = 0 + 1 * q.val; omega))

/-- Element (r, j) of the output block the body leaves: the projection of row r's new hidden state. -/
theorem output_block (x0 : Vec Ideal S1024x512 .f32) (x1 x2 : Vec Ideal S1024x1024 .f32) (x3 : Vec Ideal S512x4096 .bf16)
    (x4 : Vec Ideal S1024x4096 .bf16) (x5 : Vec Ideal S1x4096 .f32) (x6 : Vec Ideal S1024x512 .bf16) (x7 : Vec Ideal S1x512 .f32)
    (y : S1024x512.Idx) :
    out0_8 (F := Ideal) x0 x1 x2 x3 x4 x5 x6 x7 y = outputAt x0 x1 x2 x3 x4 x5 x6 x7 (y 0) (y 1) := by
  unfold out0_8
  refine View.canon_apply_of_pieces (Val := Elt Ideal) (e := .f32) (fun y : S1024x512.Idx => outputAt x0 x1 x2 x3 x4 x5 x6 x7 (y 0) (y 1)) _ ?_ y (cover0_8 _ _ _ _ y)
  intro pc hpc x'
  simp only [List.mem_cons, List.not_mem_nil, or_false] at hpc
  rcases hpc with rfl | rfl | rfl | rfl
  · obtain ⟨p, j, rfl⟩ : ∃ (p : Fin 256) (j : Fin 512), x' = ix2 p j := ⟨x' 0, x' 1, eq_ix2 x'⟩
    show k0_pay1 (F := Ideal) (k0_pay12 _ _ _ _ _ _) _ _ (ix2 p j) = outputAt x0 x1 x2 x3 x4 x5 x6 x7 ((r0_11.emb (ix2 p j)) 0) ((r0_11.emb (ix2 p j)) 1)
    rw [hidden3_eq, output_ld x0 x1 x2 x3 x4 x5 x6 x7 768 _ _ p j (by omega)]
    congr 1 <;> exact Fin.ext (by first | (show 768 + p.val = 768 + 1 * p.val; omega) | (show j.val = 0 + 1 * j.val; omega))
  · obtain ⟨p, j, rfl⟩ : ∃ (p : Fin 256) (j : Fin 512), x' = ix2 p j := ⟨x' 0, x' 1, eq_ix2 x'⟩
    show k0_pay11 (F := Ideal) (k0_pay10 _ _ _ _ _ _) _ _ (ix2 p j) = outputAt x0 x1 x2 x3 x4 x5 x6 x7 ((r0_9.emb (ix2 p j)) 0) ((r0_9.emb (ix2 p j)) 1)
    rw [output2_eq, output_ld x0 x1 x2 x3 x4 x5 x6 x7 512 _ _ p j (by omega)]
    congr 1 <;> exact Fin.ext (by first | (show 512 + p.val = 512 + 1 * p.val; omega) | (show j.val = 0 + 1 * j.val; omega))
  · obtain ⟨p, j, rfl⟩ : ∃ (p : Fin 256) (j : Fin 512), x' = ix2 p j := ⟨x' 0, x' 1, eq_ix2 x'⟩
    show k0_pay8 (F := Ideal) (k0_pay7 _ _ _ _ _ _ _) _ (ix2 p j) = outputAt x0 x1 x2 x3 x4 x5 x6 x7 ((r0_7.emb (ix2 p j)) 0) ((r0_7.emb (ix2 p j)) 1)
    rw [output1_eq, output_ld x0 x1 x2 x3 x4 x5 x6 x7 256 _ _ p j (by omega)]
    congr 1 <;> exact Fin.ext (by first | (show 256 + p.val = 256 + 1 * p.val; omega) | (show j.val = 0 + 1 * j.val; omega))
  · obtain ⟨p, j, rfl⟩ : ∃ (p : Fin 256) (j : Fin 512), x' = ix2 p j := ⟨x' 0, x' 1, eq_ix2 x'⟩
    show k0_pay5 (F := Ideal) (k0_pay3 _ _ _ _ _ _ _) (k0_pay4 _) (ix2 p j) = outputAt x0 x1 x2 x3 x4 x5 x6 x7 ((r0_0.emb (ix2 p j)) 0) ((r0_0.emb (ix2 p j)) 1)
    rw [output0_eq, output_ld x0 x1 x2 x3 x4 x5 x6 x7 0 _ _ p j (by omega)]
    congr 1 <;> exact Fin.ext (by first | (show 0 + p.val = 0 + 1 * p.val; omega) | (show j.val = 0 + 1 * j.val; omega))

end Cert.KernelIdeal.Block

end
-- ==== Proof.HostArrays.lean ====
/-
  The arrays the host operations prepare before the region, read at an index.

  The two stacked weight arrays Wx[g, k, i] and Wh[g, k, j] are flattened over (g, k) to a row index n = g·1024 + k
  and transposed, so the prepared arrays hold  WxT[i, n] = Wx[g, k, i]  and  WhT[j, n] = Wh[g, k, j];  the stacked bias
  Bx[g, k] is flattened to a single row  b[0, n] = Bx[g, k];  the output weights are transposed,
  WoT[k, o] = Wout[o, k];  the output bias becomes a single row  bo[0, o] = Bout[o].  A change of number format is the
  identity on the extended reals, a transpose exchanges the two coordinates, and a reshape keeps the row-major position:
  (g·1024 + k)·512 + i  is the position of (g, k, i) in the stacked array and of (n, i) in the flattened one.
-/
import proofs.«141019_g22874995818703_feedfinal_596_25_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostArr

open Cert.KernelIdeal Cert.KernelIdeal.Gen
open Idealize.ShloMosaic Idealize.ShloMosaic.ValueIdx Idealize.ShloMosaic.TcCoe Idealize.SL.Sem

/-! ## Each chain of operations at an index, over any operand -/

/-- Flatten the two leading axes of a [4, 1024, 512] array, transpose, change the format: the entry at (i, g·1024 + k)
    is the operand's at (g, k, i). -/
theorem flatT512_apply (x : FVec Ideal S4x1024x512 .f32) (i : Fin 512) (n : Fin 4096) (g : Fin 4) (k : Fin 1024)
    (hn : n.val = g.val * 1024 + k.val) :
    (truncf (F := Ideal) .bf16 (transpose S512x4096 [1, 0] (shapeCast S4096x512 x shapeCasts_S4x1024x512_S4096x512)
      transposes_S4096x512_S512x4096_1_0) bitsLt_bf16_f32) (ix2 i n) = x (ix3 g k i) := by
  rw [truncf_apply]
  refine (transpose_apply [1, 0] _ transposes_S4096x512_S512x4096_1_0 (ix2 i n) (ix2 n i)
    (fun b => match b with | ⟨0, _⟩ => rfl | ⟨1, _⟩ => rfl)).trans ?_
  refine shapeCast_apply x shapeCasts_S4x1024x512_S4096x512 (ix2 n i) (ix3 g k i) ?_
  rw [Shape.rowMajor_val_three, Shape.rowMajor_val_two]
  show (g.val * 1024 + k.val) * 512 + i.val = n.val * 512 + i.val
  omega

/-- The same for a [4, 1024, 1024] array: the entry at (j, g·1024 + k) is the operand's at (g, k, j). -/
theorem flatT1024_apply (x : FVec Ideal S4x1024x1024 .f32) (j : Fin 1024) (n : Fin 4096) (g : Fin 4) (k : Fin 1024)
    (hn : n.val = g.val * 1024 + k.val) :
    (truncf (F := Ideal) .bf16 (transpose S1024x4096 [1, 0] (shapeCast S4096x1024 x shapeCasts_S4x1024x1024_S4096x1024)
      transposes_S4096x1024_S1024x4096_1_0) bitsLt_bf16_f32) (ix2 j n) = x (ix3 g k j) := by
  rw [truncf_apply]
  refine (transpose_apply [1, 0] _ transposes_S4096x1024_S1024x4096_1_0 (ix2 j n) (ix2 n j)
    (fun b => match b with | ⟨0, _⟩ => rfl | ⟨1, _⟩ => rfl)).trans ?_
  refine shapeCast_apply x shapeCasts_S4x1024x1024_S4096x1024 (ix2 n j) (ix3 g k j) ?_
  rw [Shape.rowMajor_val_three, Shape.rowMajor_val_two]
  show (g.val * 1024 + k.val) * 1024 + j.val = n.val * 1024 + j.val
  omega

/-- Flatten a [4, 1024] array to one row: the entry at (0, g·1024 + k) is the operand's at (g, k). -/
theorem flatRow_apply (x : FVec Ideal S4x1024 .f32) (z : Fin 1) (n : Fin 4096) (g : Fin 4) (k : Fin 1024)
    (hn : n.val = g.val * 1024 + k.val) :
    (shapeCast S1x4096 x shapeCasts_S4x1024_S1x4096) (ix2 z n) = x (ix2 g k) := by
  refine shapeCast_apply x shapeCasts_S4x1024_S1x4096 (ix2 z n) (ix2 g k) ?_
  rw [Shape.rowMajor_val_two, Shape.rowMajor_val_two]
  show g.val * 1024 + k.val = z.val * 4096 + n.val
  have := z.isLt
  omega

/-- Transpose a [512, 1024] array and change the format: the entry at (k, o) is the operand's at (o, k). -/
theorem transT_apply (x : FVec Ideal S512x1024 .f32) (k : Fin 1024) (o : Fin 512) :
    (truncf (F := Ideal) .bf16 (transpose S1024x512 [1, 0] x transposes_S512x1024_S1024x512_1_0) bitsLt_bf16_f32) (ix2 k o)
      = x (ix2 o k) := by
  rw [truncf_apply]
  exact transpose_apply [1, 0] x transposes_S512x1024_S1024x512_1_0 (ix2 k o) (ix2 o k)
    (fun b => match b with | ⟨0, _⟩ => rfl | ⟨1, _⟩ => rfl)

/-- A [512] array as one row: the entry at (0, o) is the operand's at o. -/
theorem asRow_apply (x : FVec Ideal S512 .f32) (z : Fin 1) (o : Fin 512) :
    (shapeCast S1x512 x shapeCasts_S512_S1x512) (ix2 z o) = x (ix1 o) := by
  refine shapeCast_apply x shapeCasts_S512_S1x512 (ix2 z o) (ix1 o) ?_
  rw [Shape.rowMajor_val_one, Shape.rowMajor_val_two]
  show o.val = z.val * 512 + o.val
  have := z.isLt
  omega

/-! ## The prepared arrays as terms of the argument arrays -/

variable (m : (ℓ : Loc nD τ sig) → Buf (Elt Ideal) ℓ)

/-- The transposed input weights are the chain applied to the argument array Wx. -/
theorem wxT_eq (c : Dev nD) :
    @Eq (FVec Ideal S512x4096 .bf16) (V m c main_call0_v2)
      (truncf (F := Ideal) .bf16 (transpose S512x4096 [1, 0]
        (shapeCast S4096x512 (m ((c : Thread nD τ).loc main_arg3) : FVec Ideal S4x1024x512 .f32) shapeCasts_S4x1024x512_S4096x512)
        transposes_S4096x512_S512x4096_1_0) bitsLt_bf16_f32) := by
  dsimp only [Gen.V, Gen.hostOps0]; after_results; rfl

/-- The transposed recurrent weights are the chain applied to the argument array Wh. -/
theorem whT_eq (c : Dev nD) :
    @Eq (FVec Ideal S1024x4096 .bf16) (V m c main_call0_v5)
      (truncf (F := Ideal) .bf16 (transpose S1024x4096 [1, 0]
        (shapeCast S4096x1024 (m ((c : Thread nD τ).loc main_arg5) : FVec Ideal S4x1024x1024 .f32) shapeCasts_S4x1024x1024_S4096x1024)
        transposes_S4096x1024_S1024x4096_1_0) bitsLt_bf16_f32) := by
  dsimp only [Gen.V, Gen.hostOps0]; after_results; rfl

/-- The bias row is the argument array Bx flattened. -/
theorem bias_eq (c : Dev nD) :
    @Eq (FVec Ideal S1x4096 .f32) (V m c main_call0_v6)
      (shapeCast S1x4096 (m ((c : Thread nD τ).loc main_arg4) : FVec Ideal S4x1024 .f32) shapeCasts_S4x1024_S1x4096) := by
  dsimp only [Gen.V, Gen.hostOps0]; after_results; rfl

/-- The transposed output weights are the chain applied to the argument array Wout. -/
theorem woT_eq (c : Dev nD) :
    @Eq (FVec Ideal S1024x512 .bf16) (V m c main_call0_v8)
      (truncf (F := Ideal) .bf16 (transpose S1024x512 [1, 0]
        (m ((c : Thread nD τ).loc main_arg6) : FVec Ideal S512x1024 .f32) transposes_S512x1024_S1024x512_1_0) bitsLt_bf16_f32) := by
  dsimp only [Gen.V, Gen.hostOps0]; after_results; rfl

/-- The output bias row is the argument array Bout as one row. -/
theorem bo_eq (c : Dev nD) :
    @Eq (FVec Ideal S1x512 .f32) (V m c main_call0_v9)
      (shapeCast S1x512 (m ((c : Thread nD τ).loc main_arg7) : FVec Ideal S512 .f32) shapeCasts_S512_S1x512) := by
  dsimp only [Gen.V, Gen.hostOps0]; after_results; rfl

/-! ## The prepared arrays at an index -/

/-- WxT[i, g·1024 + k] = Wx[g, k, i]. -/
theorem wxT_apply (c : Dev nD) (i : Fin 512) (n : Fin 4096) (g : Fin 4) (k : Fin 1024) (hn : n.val = g.val * 1024 + k.val) :
    (V m c main_call0_v2 : S512x4096.Idx → EReal) (ix2 i n)
      = (m ((c : Thread nD τ).loc main_arg3) : S4x1024x512.Idx → EReal) (ix3 g k i) :=
  (congrFun (wxT_eq m c) (ix2 i n)).trans (flatT512_apply _ i n g k hn)

/-- WhT[j, g·1024 + k] = Wh[g, k, j]. -/
theorem whT_apply (c : Dev nD) (j : Fin 1024) (n : Fin 4096) (g : Fin 4) (k : Fin 1024) (hn : n.val = g.val * 1024 + k.val) :
    (V m c main_call0_v5 : S1024x4096.Idx → EReal) (ix2 j n)
      = (m ((c : Thread nD τ).loc main_arg5) : S4x1024x1024.Idx → EReal) (ix3 g k j) :=
  (congrFun (whT_eq m c) (ix2 j n)).trans (flatT1024_apply _ j n g k hn)

/-- b[0, g·1024 + k] = Bx[g, k]. -/
theorem bias_apply (c : Dev nD) (z : Fin 1) (n : Fin 4096) (g : Fin 4) (k : Fin 1024) (hn : n.val = g.val * 1024 + k.val) :
    (V m c main_call0_v6 : S1x4096.Idx → EReal) (ix2 z n)
      = (m ((c : Thread nD τ).loc main_arg4) : S4x1024.Idx → EReal) (ix2 g k) :=
  (congrFun (bias_eq m c) (ix2 z n)).trans (flatRow_apply _ z n g k hn)

/-- WoT[k, o] = Wout[o, k]. -/
theorem woT_apply (c : Dev nD) (k : Fin 1024) (o : Fin 512) :
    (V m c main_call0_v8 : S1024x512.Idx → EReal) (ix2 k o)
      = (m ((c : Thread nD τ).loc main_arg6) : S512x1024.Idx → EReal) (ix2 o k) :=
  (congrFun (woT_eq m c) (ix2 k o)).trans (transT_apply _ k o)

/-- bo[0, o] = Bout[o]. -/
theorem bo_apply (c : Dev nD) (z : Fin 1) (o : Fin 512) :
    (V m c main_call0_v9 : S1x512.Idx → EReal) (ix2 z o)
      = (m ((c : Thread nD τ).loc main_arg7) : S512.Idx → EReal) (ix1 o) :=
  (congrFun (bo_eq m c) (ix2 z o)).trans (asRow_apply _ z o)

end Cert.KernelIdeal.HostArr

end
-- ==== Proof.KernelValue.lean ====
/-
  The two arrays the idealized kernel leaves, as functions of its argument arrays.

  The grid has 16 points; point t stages rows 1024·t … 1024·t + 1023 of the input, the hidden state and the cell state,
  the five prepared weight and bias arrays whole, and writes back rows 1024·t … of the two results. The prepared arrays are
  re-layings of the arguments: column g·1024 + k of the input weights' array at row i is Wx[g, k, i], and likewise for the
  recurrent weights and the bias row; the projection array at (k, o) is Wout[o, k]; the bias row at o is Bout[o]. So the
  gate column g·1024 + k of a row r of a block is gate g's pre-activation of the specification at batch row 1024·t + r,
  the block elements are the specification's (Blocks), and the sixteen blocks tile each result array.
-/
import proofs.«141019_g22874995818703_feedfinal_596_25_alg».proof.Proof.Gen.KernelIdeal.Value
import proofs.«141019_g22874995818703_feedfinal_596_25_alg».proof.Proof.Blocks
import proofs.«141019_g22874995818703_feedfinal_596_25_alg».proof.Proof.HostArrays

set_option maxRecDepth 16384

noncomputable section

open scoped BigOperators

namespace Cert.KernelIdeal.KernelValue

open Cert.KernelIdeal Cert.KernelIdeal.Gen Cert.KernelIdeal.Chain Cert.KernelIdeal.Block Cert.KernelIdeal.HostArr
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The new hidden state the specification gives for this memory's arguments. -/
def hnSpec (c : Dev nD) : S16384x1024.Idx → EReal :=
  Cert.Lstm.hnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The projected output the specification gives for this memory's arguments. -/
def outSpec (c : Dev nD) : S16384x512.Idx → EReal :=
  Cert.Lstm.outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The arrays as the region finds them give the specification's gates -/

/-- Gate column n = g·1024 + k at batch row r, over the arrays the region finds, is gate g's pre-activation. -/
theorem gate_arrays (c : Dev nD) (r : Fin 16384) (n : Fin 4096) (g : Fin 4) (k : Fin 1024) (hn : n.val = g.val * 1024 + k.val) :
    gateAt (V m c main_arg0) (V m c main_arg1) (V m c main_call0_v2) (V m c main_call0_v5) (V m c main_call0_v6) r n
      = Cert.Lstm.gatePre (m ((c : Thread nD τ).loc main_arg0)) (m ((c : Thread nD τ).loc main_arg1)) (m ((c : Thread nD τ).loc main_arg3)) (m ((c : Thread nD τ).loc main_arg4)) (m ((c : Thread nD τ).loc main_arg5)) g r k := by
  unfold gateAt Cert.Lstm.gatePre
  have e0 : (fun i : Fin 512 => (V m c main_arg0 : S16384x512.Idx → EReal) (ix2 r i)) = fun i => ((m ((c : Thread nD τ).loc main_arg0)) : S16384x512.Idx → EReal) (ix2 r i) :=
    funext fun i => congrFun (V_main_arg0 m c) (ix2 r i)
  have e1 : (fun j : Fin 1024 => (V m c main_arg1 : S16384x1024.Idx → EReal) (ix2 r j)) = fun j => ((m ((c : Thread nD τ).loc main_arg1)) : S16384x1024.Idx → EReal) (ix2 r j) :=
    funext fun j => congrFun (V_main_arg1 m c) (ix2 r j)
  have ew : (fun i : Fin 512 => (V m c main_call0_v2 : S512x4096.Idx → EReal) (ix2 i n)) = fun i => ((m ((c : Thread nD τ).loc main_arg3)) : S4x1024x512.Idx → EReal) (ix3 g k i) :=
    funext fun i => wxT_apply m c i n g k hn
  have eh : (fun j : Fin 1024 => (V m c main_call0_v5 : S1024x4096.Idx → EReal) (ix2 j n)) = fun j => ((m ((c : Thread nD τ).loc main_arg5)) : S4x1024x1024.Idx → EReal) (ix3 g k j) :=
    funext fun j => whT_apply m c j n g k hn
  have eb := bias_apply m c (0 : Fin 1) n g k hn
  exact congr (congr (congr (congr (congrArg Cert.Lstm.affine2 e0) ew) e1) eh) eb

/-- The cell's update over the arrays the region finds is the specification's new hidden state. -/
theorem hidden_arrays (c : Dev nD) (r : Fin 16384) (q : Fin 1024) :
    hiddenAt (V m c main_arg0) (V m c main_arg1) (V m c main_arg2) (V m c main_call0_v2) (V m c main_call0_v5) (V m c main_call0_v6) r q
      = Cert.Lstm.hnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  unfold hiddenAt Cert.Lstm.hnAt
  rw [gate_arrays m c r _ 0 q (by simp), gate_arrays m c r _ 1 q (by simp), gate_arrays m c r _ 2 q (by simp), gate_arrays m c r _ 3 q (by simp)]
  exact congrArg _ (congrFun (V_main_arg2 m c) (ix2 r q))

/-- The projection over the arrays the region finds is the specification's output. -/
theorem output_arrays (c : Dev nD) (r : Fin 16384) (j : Fin 512) :
    outputAt (V m c main_arg0) (V m c main_arg1) (V m c main_arg2) (V m c main_call0_v2) (V m c main_call0_v5) (V m c main_call0_v6)
        (V m c main_call0_v8) (V m c main_call0_v9) r j
      = outSpec m c (ix2 r j) := by
  show _ = (∑ k : Fin 1024, Cert.Lstm.hnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r k
      * ((m ((c : Thread nD τ).loc main_arg6)) : S512x1024.Idx → EReal) (ix2 j k)) + ((m ((c : Thread nD τ).loc main_arg7)) : S512.Idx → EReal) (ix1 j)
  unfold outputAt
  rw [bo_apply m c (0 : Fin 1) j]
  refine congrArg (· + _) (Finset.sum_congr rfl fun k _ => ?_)
  rw [hidden_arrays m c r k, woT_apply m c k j]

/-! ## The windows' blocks, element by element -/

theorem facts_0 : ∀ t : Fin cfg0.N, win0_0.index t (0 : Fin 2) = t.val ∧ win0_0.index t (1 : Fin 2) = 0 :=
  (by decide +kernel : ∀ t : Fin grid0.N, _)
theorem facts_1 : ∀ t : Fin cfg0.N, win0_1.index t (0 : Fin 2) = t.val ∧ win0_1.index t (1 : Fin 2) = 0 :=
  (by decide +kernel : ∀ t : Fin grid0.N, _)
theorem facts_2 : ∀ t : Fin cfg0.N, win0_2.index t (0 : Fin 2) = t.val ∧ win0_2.index t (1 : Fin 2) = 0 :=
  (by decide +kernel : ∀ t : Fin grid0.N, _)
theorem facts_8 : ∀ t : Fin cfg0.N, win0_8.index t (0 : Fin 2) = t.val ∧ win0_8.index t (1 : Fin 2) = 0 :=
  (by decide +kernel : ∀ t : Fin grid0.N, _)
theorem facts_9 : ∀ t : Fin cfg0.N, win0_9.index t (0 : Fin 2) = t.val ∧ win0_9.index t (1 : Fin 2) = 0 :=
  (by decide +kernel : ∀ t : Fin grid0.N, _)
theorem facts_3 : ∀ t : Fin cfg0.N, win0_3.index t (0 : Fin 2) = 0 ∧ win0_3.index t (1 : Fin 2) = 0 :=
  (by decide +kernel : ∀ t : Fin grid0.N, _)
theorem facts_4 : ∀ t : Fin cfg0.N, win0_4.index t (0 : Fin 2) = 0 ∧ win0_4.index t (1 : Fin 2) = 0 :=
  (by decide +kernel : ∀ t : Fin grid0.N, _)
theorem facts_5 : ∀ t : Fin cfg0.N, win0_5.index t (0 : Fin 2) = 0 ∧ win0_5.index t (1 : Fin 2) = 0 :=
  (by decide +kernel : ∀ t : Fin grid0.N, _)
theorem facts_6 : ∀ t : Fin cfg0.N, win0_6.index t (0 : Fin 2) = 0 ∧ win0_6.index t (1 : Fin 2) = 0 :=
  (by decide +kernel : ∀ t : Fin grid0.N, _)
theorem facts_7 : ∀ t : Fin cfg0.N, win0_7.index t (0 : Fin 2) = 0 ∧ win0_7.index t (1 : Fin 2) = 0 :=
  (by decide +kernel : ∀ t : Fin grid0.N, _)

/-- Window 0's block at point t, element (p, i): row 1024·t + p of its array. -/
theorem iblk0_apply (c : Dev nD) (t : Fin cfg0.N) (p : Fin 1024) (i : Fin 512) :
    iblk m c 0 t (ix2 p i) = (V m c main_arg0 : S16384x512.Idx → EReal) (ix2 ⟨t.val * 1024 + p.val, by have ht : t.val < 16 := t.isLt; omega⟩ i) := by
  have f0 : win0_0.index t (0 : Fin 2) = t.val := (facts_0 t).1
  have f1 : win0_0.index t (1 : Fin 2) = 0 := (facts_0 t).2
  show (V m c main_arg0 : S16384x512.Idx → EReal) (((cfg0.win 0).blk t).view.emb (ix2 p i)) = _
  refine congrArg _ (funext fun a => Fin.ext ?_)
  match a with
  | ⟨0, _⟩ => show win0_0.index t (0 : Fin 2) * 1024 + 1 * p.val = t.val * 1024 + p.val; rw [f0]; omega
  | ⟨1, _⟩ => show win0_0.index t (1 : Fin 2) * 512 + 1 * i.val = i.val; rw [f1]; omega

/-- Window 1's block at point t, element (p, i): row 1024·t + p of its array. -/
theorem iblk1_apply (c : Dev nD) (t : Fin cfg0.N) (p : Fin 1024) (i : Fin 1024) :
    iblk m c 1 t (ix2 p i) = (V m c main_arg1 : S16384x1024.Idx → EReal) (ix2 ⟨t.val * 1024 + p.val, by have ht : t.val < 16 := t.isLt; omega⟩ i) := by
  have f0 : win0_1.index t (0 : Fin 2) = t.val := (facts_1 t).1
  have f1 : win0_1.index t (1 : Fin 2) = 0 := (facts_1 t).2
  show (V m c main_arg1 : S16384x1024.Idx → EReal) (((cfg0.win 1).blk t).view.emb (ix2 p i)) = _
  refine congrArg _ (funext fun a => Fin.ext ?_)
  match a with
  | ⟨0, _⟩ => show win0_1.index t (0 : Fin 2) * 1024 + 1 * p.val = t.val * 1024 + p.val; rw [f0]; omega
  | ⟨1, _⟩ => show win0_1.index t (1 : Fin 2) * 1024 + 1 * i.val = i.val; rw [f1]; omega

/-- Window 2's block at point t, element (p, i): row 1024·t + p of its array. -/
theorem iblk2_apply (c : Dev nD) (t : Fin cfg0.N) (p : Fin 1024) (i : Fin 1024) :
    iblk m c 2 t (ix2 p i) = (V m c main_arg2 : S16384x1024.Idx → EReal) (ix2 ⟨t.val * 1024 + p.val, by have ht : t.val < 16 := t.isLt; omega⟩ i) := by
  have f0 : win0_2.index t (0 : Fin 2) = t.val := (facts_2 t).1
  have f1 : win0_2.index t (1 : Fin 2) = 0 := (facts_2 t).2
  show (V m c main_arg2 : S16384x1024.Idx → EReal) (((cfg0.win 2).blk t).view.emb (ix2 p i)) = _
  refine congrArg _ (funext fun a => Fin.ext ?_)
  match a with
  | ⟨0, _⟩ => show win0_2.index t (0 : Fin 2) * 1024 + 1 * p.val = t.val * 1024 + p.val; rw [f0]; omega
  | ⟨1, _⟩ => show win0_2.index t (1 : Fin 2) * 1024 + 1 * i.val = i.val; rw [f1]; omega

/-- Window 3's block at point t, element (p, i): its array itself. -/
theorem iblk3_apply (c : Dev nD) (t : Fin cfg0.N) (p : Fin 512) (i : Fin 4096) :
    iblk m c 3 t (ix2 p i) = (V m c main_call0_v2 : S512x4096.Idx → EReal) (ix2 p i) := by
  have f0 : win0_3.index t (0 : Fin 2) = 0 := (facts_3 t).1
  have f1 : win0_3.index t (1 : Fin 2) = 0 := (facts_3 t).2
  show (V m c main_call0_v2 : S512x4096.Idx → EReal) (((cfg0.win 3).blk t).view.emb (ix2 p i)) = _
  refine congrArg _ (funext fun a => Fin.ext ?_)
  match a with
  | ⟨0, _⟩ => show win0_3.index t (0 : Fin 2) * 512 + 1 * p.val = p.val; rw [f0]; omega
  | ⟨1, _⟩ => show win0_3.index t (1 : Fin 2) * 4096 + 1 * i.val = i.val; rw [f1]; omega

/-- Window 4's block at point t, element (p, i): its array itself. -/
theorem iblk4_apply (c : Dev nD) (t : Fin cfg0.N) (p : Fin 1024) (i : Fin 4096) :
    iblk m c 4 t (ix2 p i) = (V m c main_call0_v5 : S1024x4096.Idx → EReal) (ix2 p i) := by
  have f0 : win0_4.index t (0 : Fin 2) = 0 := (facts_4 t).1
  have f1 : win0_4.index t (1 : Fin 2) = 0 := (facts_4 t).2
  show (V m c main_call0_v5 : S1024x4096.Idx → EReal) (((cfg0.win 4).blk t).view.emb (ix2 p i)) = _
  refine congrArg _ (funext fun a => Fin.ext ?_)
  match a with
  | ⟨0, _⟩ => show win0_4.index t (0 : Fin 2) * 1024 + 1 * p.val = p.val; rw [f0]; omega
  | ⟨1, _⟩ => show win0_4.index t (1 : Fin 2) * 4096 + 1 * i.val = i.val; rw [f1]; omega

/-- Window 5's block at point t, element (p, i): its array itself. -/
theorem iblk5_apply (c : Dev nD) (t : Fin cfg0.N) (p : Fin 1) (i : Fin 4096) :
    iblk m c 5 t (ix2 p i) = (V m c main_call0_v6 : S1x4096.Idx → EReal) (ix2 p i) := by
  have f0 : win0_5.index t (0 : Fin 2) = 0 := (facts_5 t).1
  have f1 : win0_5.index t (1 : Fin 2) = 0 := (facts_5 t).2
  show (V m c main_call0_v6 : S1x4096.Idx → EReal) (((cfg0.win 5).blk t).view.emb (ix2 p i)) = _
  refine congrArg _ (funext fun a => Fin.ext ?_)
  match a with
  | ⟨0, _⟩ => show win0_5.index t (0 : Fin 2) * 1 + 1 * p.val = p.val; rw [f0]; omega
  | ⟨1, _⟩ => show win0_5.index t (1 : Fin 2) * 4096 + 1 * i.val = i.val; rw [f1]; omega

/-- Window 6's block at point t, element (p, i): its array itself. -/
theorem iblk6_apply (c : Dev nD) (t : Fin cfg0.N) (p : Fin 1024) (i : Fin 512) :
    iblk m c 6 t (ix2 p i) = (V m c main_call0_v8 : S1024x512.Idx → EReal) (ix2 p i) := by
  have f0 : win0_6.index t (0 : Fin 2) = 0 := (facts_6 t).1
  have f1 : win0_6.index t (1 : Fin 2) = 0 := (facts_6 t).2
  show (V m c main_call0_v8 : S1024x512.Idx → EReal) (((cfg0.win 6).blk t).view.emb (ix2 p i)) = _
  refine congrArg _ (funext fun a => Fin.ext ?_)
  match a with
  | ⟨0, _⟩ => show win0_6.index t (0 : Fin 2) * 1024 + 1 * p.val = p.val; rw [f0]; omega
  | ⟨1, _⟩ => show win0_6.index t (1 : Fin 2) * 512 + 1 * i.val = i.val; rw [f1]; omega

/-- Window 7's block at point t, element (p, i): its array itself. -/
theorem iblk7_apply (c : Dev nD) (t : Fin cfg0.N) (p : Fin 1) (i : Fin 512) :
    iblk m c 7 t (ix2 p i) = (V m c main_call0_v9 : S1x512.Idx → EReal) (ix2 p i) := by
  have f0 : win0_7.index t (0 : Fin 2) = 0 := (facts_7 t).1
  have f1 : win0_7.index t (1 : Fin 2) = 0 := (facts_7 t).2
  show (V m c main_call0_v9 : S1x512.Idx → EReal) (((cfg0.win 7).blk t).view.emb (ix2 p i)) = _
  refine congrArg _ (funext fun a => Fin.ext ?_)
  match a with
  | ⟨0, _⟩ => show win0_7.index t (0 : Fin 2) * 1 + 1 * p.val = p.val; rw [f0]; omega
  | ⟨1, _⟩ => show win0_7.index t (1 : Fin 2) * 512 + 1 * i.val = i.val; rw [f1]; omega

/-- A gate column over point t's blocks is the arrays' gate column at batch row 1024·t + p. -/
theorem gate_blocks (c : Dev nD) (t : Fin cfg0.N) (p : Fin 1024) (n : Fin 4096) :
    gateAt (R := 1024) (iblk m c 0 t) (iblk m c 1 t) (iblk m c 3 t) (iblk m c 4 t) (iblk m c 5 t) p n
      = gateAt (V m c main_arg0) (V m c main_arg1) (V m c main_call0_v2) (V m c main_call0_v5) (V m c main_call0_v6) ⟨t.val * 1024 + p.val, by have ht : t.val < 16 := t.isLt; omega⟩ n := by
  unfold gateAt
  exact congr (congr (congr (congr (congrArg Cert.Lstm.affine2 (funext fun i => iblk0_apply m c t p i))
    (funext fun i => iblk3_apply m c t i n)) (funext fun j => iblk1_apply m c t p j)) (funext fun j => iblk4_apply m c t j n))
    (iblk5_apply m c t (0 : Fin 1) n)

/-- The cell's update over point t's blocks is the arrays' at batch row 1024·t + p. -/
theorem hidden_blocks (c : Dev nD) (t : Fin cfg0.N) (p : Fin 1024) (q : Fin 1024) :
    hiddenAt (R := 1024) (iblk m c 0 t) (iblk m c 1 t) (iblk m c 2 t) (iblk m c 3 t) (iblk m c 4 t) (iblk m c 5 t) p q
      = hiddenAt (V m c main_arg0) (V m c main_arg1) (V m c main_arg2) (V m c main_call0_v2) (V m c main_call0_v5) (V m c main_call0_v6) ⟨t.val * 1024 + p.val, by have ht : t.val < 16 := t.isLt; omega⟩ q := by
  unfold hiddenAt
  exact congr (congr (congr (congr (congrArg Cert.Lstm.cell (gate_blocks m c t p _)) (gate_blocks m c t p _)) (gate_blocks m c t p _))
    (gate_blocks m c t p _)) (iblk2_apply m c t p q)

/-- The projection over point t's blocks is the arrays' at batch row 1024·t + p. -/
theorem output_blocks (c : Dev nD) (t : Fin cfg0.N) (p : Fin 1024) (j : Fin 512) :
    outputAt (R := 1024) (iblk m c 0 t) (iblk m c 1 t) (iblk m c 2 t) (iblk m c 3 t) (iblk m c 4 t) (iblk m c 5 t) (iblk m c 6 t) (iblk m c 7 t) p j
      = outputAt (V m c main_arg0) (V m c main_arg1) (V m c main_arg2) (V m c main_call0_v2) (V m c main_call0_v5) (V m c main_call0_v6) (V m c main_call0_v8) (V m c main_call0_v9) ⟨t.val * 1024 + p.val, by have ht : t.val < 16 := t.isLt; omega⟩ j := by
  unfold outputAt
  refine congr (congrArg HAdd.hAdd (Finset.sum_congr rfl fun k _ => ?_)) (iblk7_apply m c t (0 : Fin 1) j)
  exact congr (congrArg HMul.hMul (hidden_blocks m c t p k)) (iblk6_apply m c t k j)

/-! ## What each point writes back, and the arrays after the run -/

/-- Point t writes back block t of the specification's new hidden state. -/
theorem flushed9_eq (c : Dev nD) (t : Fin cfg0.N) :
    (dats m 0 c).flushed 9 t = ((cfg0.win 9).blk t).view.read (Elt Ideal) (hnSpec m c) := by
  rw [Value.flushed9]
  funext j
  obtain ⟨p, q, rfl⟩ : ∃ (p : Fin 1024) (q : Fin 1024), j = ix2 p q := ⟨j 0, j 1, eq_ix2 j⟩
  have f0 : win0_9.index t (0 : Fin 2) = t.val := (facts_9 t).1
  have f1 : win0_9.index t (1 : Fin 2) = 0 := (facts_9 t).2
  have e0 : (((cfg0.win 9).blk t).view.emb (ix2 p q)) 0 = (⟨t.val * 1024 + p.val, by have ht : t.val < 16 := t.isLt; omega⟩ : Fin 16384) :=
    Fin.ext (by show win0_9.index t (0 : Fin 2) * 1024 + 1 * p.val = t.val * 1024 + p.val; rw [f0]; omega)
  have e1 : (((cfg0.win 9).blk t).view.emb (ix2 p q)) 1 = q :=
    Fin.ext (by show win0_9.index t (1 : Fin 2) * 1024 + 1 * q.val = q.val; rw [f1]; omega)
  show out0_9 (F := Ideal) (iblk m c 0 t) (iblk m c 1 t) (iblk m c 2 t) (iblk m c 3 t) (iblk m c 4 t) (iblk m c 5 t) (iblk m c 6 t) (iblk m c 7 t) (ix2 p q)
    = Cert.Lstm.hnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        ((((cfg0.win 9).blk t).view.emb (ix2 p q)) 0) ((((cfg0.win 9).blk t).view.emb (ix2 p q)) 1)
  rw [e0, e1]
  exact ((hidden_block (iblk m c 0 t) (iblk m c 1 t) (iblk m c 2 t) (iblk m c 3 t) (iblk m c 4 t) (iblk m c 5 t) (iblk m c 6 t) (iblk m c 7 t) (ix2 p q)).trans
    (hidden_blocks m c t p q)).trans (hidden_arrays m c _ q)

/-- Point t writes back block t of the specification's output. -/
theorem flushed8_eq (c : Dev nD) (t : Fin cfg0.N) :
    (dats m 0 c).flushed 8 t = ((cfg0.win 8).blk t).view.read (Elt Ideal) (outSpec m c) := by
  rw [Value.flushed8]
  funext j
  obtain ⟨p, o, rfl⟩ : ∃ (p : Fin 1024) (o : Fin 512), j = ix2 p o := ⟨j 0, j 1, eq_ix2 j⟩
  have f0 : win0_8.index t (0 : Fin 2) = t.val := (facts_8 t).1
  have f1 : win0_8.index t (1 : Fin 2) = 0 := (facts_8 t).2
  have e : ((cfg0.win 8).blk t).view.emb (ix2 p o) = ix2 (⟨t.val * 1024 + p.val, by have ht : t.val < 16 := t.isLt; omega⟩ : Fin 16384) o := funext fun a => Fin.ext (by
    match a with
    | ⟨0, _⟩ => show win0_8.index t (0 : Fin 2) * 1024 + 1 * p.val = t.val * 1024 + p.val; rw [f0]; omega
    | ⟨1, _⟩ => show win0_8.index t (1 : Fin 2) * 512 + 1 * o.val = o.val; rw [f1]; omega)
  show out0_8 (F := Ideal) (iblk m c 0 t) (iblk m c 1 t) (iblk m c 2 t) (iblk m c 3 t) (iblk m c 4 t) (iblk m c 5 t) (iblk m c 6 t) (iblk m c 7 t) (ix2 p o)
    = outSpec m c (((cfg0.win 8).blk t).view.emb (ix2 p o))
  rw [e]
  exact ((output_block (iblk m c 0 t) (iblk m c 1 t) (iblk m c 2 t) (iblk m c 3 t) (iblk m c 4 t) (iblk m c 5 t) (iblk m c 6 t) (iblk m c 7 t) (ix2 p o)).trans
    (output_blocks m c t p o)).trans (output_arrays m c _ o)

/-- An index of the hidden-state array is in point t's block iff its row is among the block's 1024 rows. -/
theorem mem_blk9 (t : Fin cfg0.N) (i : S16384x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v0_1).slice (win0_9.rect t)).set ↔ _
  rw [View.set_slice_whole, Rect.mem_set_unit]
  exact Iff.rfl

/-- The same for the output array. -/
theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0_0).slice (win0_8.rect t)).set ↔ _
  rw [View.set_slice_whole, Rect.mem_set_unit]
  exact Iff.rfl

/-- Row r of the hidden-state array is in the block of point r / 1024: the sixteen blocks tile the array. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  refine ⟨⟨(i 0).val / 1024, (show (i 0).val / 1024 < 16 by omega)⟩, flush0_9 _, ?_⟩
  rw [mem_blk9]
  have f0 := (facts_9 ⟨(i 0).val / 1024, (show (i 0).val / 1024 < 16 by omega)⟩).1
  have f1 := (facts_9 ⟨(i 0).val / 1024, (show (i 0).val / 1024 < 16 by omega)⟩).2
  intro a
  match a with
  | ⟨0, _⟩ =>
    show win0_9.index _ (0 : Fin 2) * 1024 ≤ (i 0).val ∧ (i 0).val < win0_9.index _ (0 : Fin 2) * 1024 + 1024
    rw [f0]; show (i 0).val / 1024 * 1024 ≤ (i 0).val ∧ (i 0).val < (i 0).val / 1024 * 1024 + 1024; omega
  | ⟨1, _⟩ =>
    show win0_9.index _ (1 : Fin 2) * 1024 ≤ (i 1).val ∧ (i 1).val < win0_9.index _ (1 : Fin 2) * 1024 + 1024
    rw [f1]; omega

/-- The same for the output array. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  refine ⟨⟨(i 0).val / 1024, (show (i 0).val / 1024 < 16 by omega)⟩, flush0_8 _, ?_⟩
  rw [mem_blk8]
  have f0 := (facts_8 ⟨(i 0).val / 1024, (show (i 0).val / 1024 < 16 by omega)⟩).1
  have f1 := (facts_8 ⟨(i 0).val / 1024, (show (i 0).val / 1024 < 16 by omega)⟩).2
  intro a
  match a with
  | ⟨0, _⟩ =>
    show win0_8.index _ (0 : Fin 2) * 1024 ≤ (i 0).val ∧ (i 0).val < win0_8.index _ (0 : Fin 2) * 1024 + 1024
    rw [f0]; show (i 0).val / 1024 * 1024 ≤ (i 0).val ∧ (i 0).val < (i 0).val / 1024 * 1024 + 1024; omega
  | ⟨1, _⟩ =>
    show win0_8.index _ (1 : Fin 2) * 512 ≤ (i 1).val ∧ (i 1).val < win0_8.index _ (1 : Fin 2) * 512 + 512
    rw [f1]; omega

/-- After the run the hidden-state array is the specification's. -/
theorem final9 (c : Dev nD) : (dats m 0 c).arrAt 9 cfg0.N = hnSpec m c :=
  (dats m 0 c).arrAt_eq_of_cover 9 (hnSpec m c) (fun t _ => flushed9_eq m c t) cover9

/-- After the run the output array is the specification's. -/
theorem final8 (c : Dev nD) : (dats m 0 c).arrAt 8 cfg0.N = outSpec m c :=
  (dats m 0 c).arrAt_eq_of_cover 8 (outSpec m c) (fun t _ => flushed8_eq m c t) cover8

/-- Every weakly fair execution of the idealized kernel ends with its two results at the specification's arrays and its
    arguments unchanged. -/
theorem run : θ_run defs (onTc (τ := τ) (main (F := Ideal))) ⟨m, fun _ => 0, ρ⟩ fun r => ∀ c : Dev nD,
      r.2.mem ((c : Thread nD τ).loc main_v0_0) = outSpec m c
      ∧ r.2.mem ((c : Thread nD τ).loc main_v0_1) = hnSpec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.KernelValue

end
-- ==== Proof.RefValue.lean ====
/-
  The reference program's two results, read at an index, are the LSTM cell of the specification.

  The program forms each gate's pre-activation as (∑ᵢ Wx[g,k,i]·X[r,i] + Bx[g,k]) + ∑ⱼ Wh[g,k,j]·H[r,j]; this is the
  specification's grouping ∑ᵢ X[r,i]·Wx[g,k,i] + ∑ⱼ H[r,j]·Wh[g,k,j] + Bx[g,k] by commutativity and associativity alone.
  It spells the logistic function as 1 / (1 + e^(-x)), which is the logistic function by definition, and then forms
  σ(a₁)·tanh(σ(a₀)·tanh(a₃) + σ(a₂)·c) and the projection ∑ₖ hn[r,k]·Wout[o,k] + Bout[o] literally.
-/
import proofs.«141019_g22874995818703_feedfinal_596_25_alg».proof.Proof.Gen.ReferenceIdeal.Read
import proofs.«141019_g22874995818703_feedfinal_596_25_alg».proof.Proof.Spec

noncomputable section

open scoped BigOperators

namespace Cert.ReferenceIdeal.RefValue

open Cert.ReferenceIdeal Cert.ReferenceIdeal.Read Idealize.ShloMosaic Idealize.ShloMosaic.ValueIdx Cert.Lstm

/-! ## Indices -/

theorem lidx0_at (g : Fin 4) (r : Fin 16384) (k : Fin 1024) (i : Fin 512) :
    lidx_main_v0 (idx_main_v1 (ix3 g r k)) i = ix3 g k i := by
  funext a; match a with | ⟨0, _⟩ => rfl | ⟨1, _⟩ => rfl | ⟨2, _⟩ => rfl

theorem ridx0_at (g : Fin 4) (r : Fin 16384) (k : Fin 1024) (i : Fin 512) :
    ridx_main_v0 (idx_main_v1 (ix3 g r k)) i = ix2 r i := by
  funext a; match a with | ⟨0, _⟩ => rfl | ⟨1, _⟩ => rfl

theorem bidx_at (g : Fin 4) (r : Fin 16384) (k : Fin 1024) :
    idx_main_v2 (idx_main_v3 (ix3 g r k)) = ix2 g k := by
  funext a; match a with | ⟨0, _⟩ => rfl | ⟨1, _⟩ => rfl

theorem lidx5_at (g : Fin 4) (r : Fin 16384) (k : Fin 1024) (j : Fin 1024) :
    lidx_main_v5 (idx_main_v6 (ix3 g r k)) j = ix3 g k j := by
  funext a; match a with | ⟨0, _⟩ => rfl | ⟨1, _⟩ => rfl | ⟨2, _⟩ => rfl

theorem ridx5_at (g : Fin 4) (r : Fin 16384) (k : Fin 1024) (j : Fin 1024) :
    ridx_main_v5 (idx_main_v6 (ix3 g r k)) j = ix2 r j := by
  funext a; match a with | ⟨0, _⟩ => rfl | ⟨1, _⟩ => rfl

/-! ## The gate pre-activations -/

/-- The stacked pre-activations at gate g, batch row r, hidden unit k. -/
theorem v7_at (x0 : (⟨S16384x512, .f32⟩ : BufTy).Contents (Elt Ideal)) (x1 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (g : Fin 4) (r : Fin 16384) (k : Fin 1024) :
    val_main_v7 (F := Ideal) x0 x1 x3 x4 x5 (ix3 g r k) = gatePre x0 x1 x3 x4 x5 g r k := by
  rw [val_main_v7_apply, val_main_v4_apply, val_main_v1_apply, val_main_v0_apply, val_main_v3_apply, val_main_v2_apply,
    val_main_v6_apply, val_main_v5_apply]
  simp only [Ideal.addf_def, lidx0_at, ridx0_at, bidx_at, lidx5_at, ridx5_at]
  unfold gatePre
  rw [← affine2_regroup]

/-! ## The gates -/

theorem gidx0_at (r : Fin 16384) (k : Fin 1024) :
    idx_main_v8 (idx_main_v9 (ix2 r k)) = ix3 (0 : Fin 4) r k := by
  funext a
  match a with
  | ⟨0, _⟩ => rfl
  | ⟨1, _⟩ =>
    exact Fin.ext (by
      have hr := r.isLt; have hk := k.isLt
      show (r.val * 1024 + k.val) / 1024 % 16384 = r.val; omega)
  | ⟨2, _⟩ =>
    exact Fin.ext (by
      have hr := r.isLt; have hk := k.isLt
      show (r.val * 1024 + k.val) % 1024 = k.val; omega)

theorem gidx1_at (r : Fin 16384) (k : Fin 1024) :
    idx_main_v16 (idx_main_v17 (ix2 r k)) = ix3 (1 : Fin 4) r k := by
  funext a
  match a with
  | ⟨0, _⟩ => rfl
  | ⟨1, _⟩ =>
    exact Fin.ext (by
      have hr := r.isLt; have hk := k.isLt
      show (r.val * 1024 + k.val) / 1024 % 16384 = r.val; omega)
  | ⟨2, _⟩ =>
    exact Fin.ext (by
      have hr := r.isLt; have hk := k.isLt
      show (r.val * 1024 + k.val) % 1024 = k.val; omega)

theorem gidx2_at (r : Fin 16384) (k : Fin 1024) :
    idx_main_v24 (idx_main_v25 (ix2 r k)) = ix3 (2 : Fin 4) r k := by
  funext a
  match a with
  | ⟨0, _⟩ => rfl
  | ⟨1, _⟩ =>
    exact Fin.ext (by
      have hr := r.isLt; have hk := k.isLt
      show (r.val * 1024 + k.val) / 1024 % 16384 = r.val; omega)
  | ⟨2, _⟩ =>
    exact Fin.ext (by
      have hr := r.isLt; have hk := k.isLt
      show (r.val * 1024 + k.val) % 1024 = k.val; omega)

theorem gidx3_at (r : Fin 16384) (k : Fin 1024) :
    idx_main_v32 (idx_main_v33 (ix2 r k)) = ix3 (3 : Fin 4) r k := by
  funext a
  match a with
  | ⟨0, _⟩ => rfl
  | ⟨1, _⟩ =>
    exact Fin.ext (by
      have hr := r.isLt; have hk := k.isLt
      show (r.val * 1024 + k.val) / 1024 % 16384 = r.val; omega)
  | ⟨2, _⟩ =>
    exact Fin.ext (by
      have hr := r.isLt; have hk := k.isLt
      show (r.val * 1024 + k.val) % 1024 = k.val; omega)

/-- The logistic function of gate 0's pre-activation. -/
theorem v15_at (x0 : (⟨S16384x512, .f32⟩ : BufTy).Contents (Elt Ideal)) (x1 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (r : Fin 16384) (k : Fin 1024) :
    val_main_v15 (F := Ideal) x0 x1 x3 x4 x5 (ix2 r k) = Ideal.logistic (gatePre x0 x1 x3 x4 x5 0 r k) := by
  rw [val_main_v15_apply, val_main_v14_apply, val_main_cst_0_apply, val_main_v13_apply, val_main_v12_apply,
    val_main_cst_apply, val_main_v11_apply, val_main_v10_apply, val_main_v9_apply, val_main_v8_apply,
    gidx0_at, v7_at]
  simp only [Ideal.hostDivf_def, Ideal.addf_def, Ideal.hostUnary_exp_def, Ideal.hostNegf_def, Ideal.negf_def,
    Ideal.ofBits_def, ofBits_one_f32]
  rfl

/-- The logistic function of gate 1's pre-activation. -/
theorem v23_at (x0 : (⟨S16384x512, .f32⟩ : BufTy).Contents (Elt Ideal)) (x1 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (r : Fin 16384) (k : Fin 1024) :
    val_main_v23 (F := Ideal) x0 x1 x3 x4 x5 (ix2 r k) = Ideal.logistic (gatePre x0 x1 x3 x4 x5 1 r k) := by
  rw [val_main_v23_apply, val_main_v22_apply, val_main_cst_2_apply, val_main_v21_apply, val_main_v20_apply,
    val_main_cst_1_apply, val_main_v19_apply, val_main_v18_apply, val_main_v17_apply, val_main_v16_apply,
    gidx1_at, v7_at]
  simp only [Ideal.hostDivf_def, Ideal.addf_def, Ideal.hostUnary_exp_def, Ideal.hostNegf_def, Ideal.negf_def,
    Ideal.ofBits_def, ofBits_one_f32]
  rfl

/-- The logistic function of gate 2's pre-activation. -/
theorem v31_at (x0 : (⟨S16384x512, .f32⟩ : BufTy).Contents (Elt Ideal)) (x1 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (r : Fin 16384) (k : Fin 1024) :
    val_main_v31 (F := Ideal) x0 x1 x3 x4 x5 (ix2 r k) = Ideal.logistic (gatePre x0 x1 x3 x4 x5 2 r k) := by
  rw [val_main_v31_apply, val_main_v30_apply, val_main_cst_4_apply, val_main_v29_apply, val_main_v28_apply,
    val_main_cst_3_apply, val_main_v27_apply, val_main_v26_apply, val_main_v25_apply, val_main_v24_apply,
    gidx2_at, v7_at]
  simp only [Ideal.hostDivf_def, Ideal.addf_def, Ideal.hostUnary_exp_def, Ideal.hostNegf_def, Ideal.negf_def,
    Ideal.ofBits_def, ofBits_one_f32]
  rfl

/-- The hyperbolic tangent of gate 3's pre-activation. -/
theorem v34_at (x0 : (⟨S16384x512, .f32⟩ : BufTy).Contents (Elt Ideal)) (x1 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (r : Fin 16384) (k : Fin 1024) :
    val_main_v34 (F := Ideal) x0 x1 x3 x4 x5 (ix2 r k) = Ideal.tanh (gatePre x0 x1 x3 x4 x5 3 r k) := by
  rw [val_main_v34_apply, val_main_v33_apply, val_main_v32_apply, gidx3_at, v7_at]
  rfl

/-! ## The new hidden state -/

/-- The new hidden state at batch row r, hidden unit k. -/
theorem hn_at (x0 : (⟨S16384x512, .f32⟩ : BufTy).Contents (Elt Ideal)) (x1 x2 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) (r : Fin 16384) (k : Fin 1024) :
    val_main_v39 (F := Ideal) x0 x1 x2 x3 x4 x5 (ix2 r k) = hnAt x0 x1 x2 x3 x4 x5 r k := by
  rw [val_main_v39_apply, val_main_v38_apply, val_main_v37_apply, val_main_v35_apply, val_main_v36_apply,
    v23_at, v15_at, v34_at, v31_at]
  simp only [Ideal.mulf_def, Ideal.addf_def, Ideal.hostUnary_tanh_def]
  rfl

/-- The reference's new hidden state is the specification's. -/
theorem hn_eq (x0 : (⟨S16384x512, .f32⟩ : BufTy).Contents (Elt Ideal)) (x1 x2 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal)) :
    Cert.ReferenceIdeal.Read.val_main_v39 (F := Ideal) x0 x1 x2 x3 x4 x5 = Cert.Lstm.hnArr x0 x1 x2 x3 x4 x5 := by
  funext j
  obtain ⟨r, k, rfl⟩ : ∃ r k, j = ix2 r k := ⟨j 0, j 1, eq_ix2 j⟩
  exact hn_at x0 x1 x2 x3 x4 x5 r k

/-! ## The projected output -/

theorem lidx41_at (r : Fin 16384) (o : Fin 512) (k : Fin 1024) : lidx_main_v41 (ix2 r o) k = ix2 r k := by
  funext a; match a with | ⟨0, _⟩ => rfl | ⟨1, _⟩ => rfl

theorem ridx41_at (r : Fin 16384) (o : Fin 512) (k : Fin 1024) :
    idx_main_v40 (ridx_main_v41 (ix2 r o) k) = ix2 o k := by
  funext a; match a with | ⟨0, _⟩ => rfl | ⟨1, _⟩ => rfl

theorem bidx43_at (r : Fin 16384) (o : Fin 512) : idx_main_v42 (idx_main_v43 (ix2 r o)) = ix1 o := by
  funext a; match a with | ⟨0, _⟩ => rfl

/-- The reference's projected output is the specification's. -/
theorem out_eq (x0 : (⟨S16384x512, .f32⟩ : BufTy).Contents (Elt Ideal)) (x1 x2 : (⟨S16384x1024, .f32⟩ : BufTy).Contents (Elt Ideal))
    (x3 : (⟨S4x1024x512, .f32⟩ : BufTy).Contents (Elt Ideal)) (x4 : (⟨S4x1024, .f32⟩ : BufTy).Contents (Elt Ideal))
    (x5 : (⟨S4x1024x1024, .f32⟩ : BufTy).Contents (Elt Ideal))
    (x6 : (⟨S512x1024, .f32⟩ : BufTy).Contents (Elt Ideal)) (x7 : (⟨S512, .f32⟩ : BufTy).Contents (Elt Ideal)) :
    Cert.ReferenceIdeal.Read.val_main_v44 (F := Ideal) x0 x1 x2 x3 x4 x5 x6 x7 = Cert.Lstm.outArr x0 x1 x2 x3 x4 x5 x6 x7 := by
  funext j
  obtain ⟨r, o, rfl⟩ : ∃ r o, j = ix2 r o := ⟨j 0, j 1, eq_ix2 j⟩
  rw [val_main_v44_apply, val_main_v41_apply, val_main_v43_apply, val_main_v42_apply]
  simp only [val_main_v40_apply, lidx41_at, ridx41_at, bidx43_at, hn_at, Ideal.addf_def]
  rfl

end Cert.ReferenceIdeal.RefValue

end
-- ==== Proof.lean ====
/-
  One step of an LSTM cell, fused into one kernel gridded over blocks of 1024 batch rows, against the plain reference.

  Both programs compute, for every batch row r, hidden unit k and output unit o,
      a g r k = ∑ᵢ X[r,i]·Wx[g,k,i] + ∑ⱼ H[r,j]·Wh[g,k,j] + Bx[g,k]            (g = 0,1,2,3: input, output, forget, candidate)
      hn r k  = σ(a 1 r k) · tanh(σ(a 0 r k) · tanh(a 3 r k) + σ(a 2 r k) · C[r,k])
      out r o = ∑ₖ hn r k · Wout[o,k] + Bout[o]
  (Spec). The kernel re-lays the weights with the four gates side by side, narrows the matrix products' operands to a
  shorter float format (the identity on extended reals), works on each block in four chains of 256 rows, and uses the
  logistic function as one operation; the reference keeps the gate axis, adds the bias before the recurrent term, multiplies
  weight by input rather than input by weight, and spells the logistic function 1/(1 + e^(−x)). Over the extended reals the
  two agree by commutativity and associativity of + and · alone, so the inputs' finiteness is never used.
  The kernel's side is KernelValue (over Chain, Blocks and HostArrays), the reference's side RefValue; the three frames are
  the generated ones, and the idealization rewrote nothing.
-/
import proofs.«141019_g22874995818703_feedfinal_596_25_alg».proof.Defs
import proofs.«141019_g22874995818703_feedfinal_596_25_alg».proof.Proof.Gen.Kernel
import proofs.«141019_g22874995818703_feedfinal_596_25_alg».proof.Proof.Gen.Kernel.Skeleton
import proofs.«141019_g22874995818703_feedfinal_596_25_alg».proof.Proof.Gen.Kernel.Launch
import proofs.«141019_g22874995818703_feedfinal_596_25_alg».proof.Proof.Gen.Kernel.Points
import proofs.«141019_g22874995818703_feedfinal_596_25_alg».proof.Proof.Gen.Kernel.Frame
import proofs.«141019_g22874995818703_feedfinal_596_25_alg».proof.Proof.Gen.KernelIdeal
import proofs.«141019_g22874995818703_feedfinal_596_25_alg».proof.Proof.Gen.KernelIdeal.Skeleton
import proofs.«141019_g22874995818703_feedfinal_596_25_alg».proof.Proof.Gen.KernelIdeal.Launch
import proofs.«141019_g22874995818703_feedfinal_596_25_alg».proof.Proof.Gen.KernelIdeal.Points
import proofs.«141019_g22874995818703_feedfinal_596_25_alg».proof.Proof.Gen.KernelIdeal.Frame
import proofs.«141019_g22874995818703_feedfinal_596_25_alg».proof.Proof.Gen.ReferenceIdeal
import proofs.«141019_g22874995818703_feedfinal_596_25_alg».proof.Proof.Gen.Pre_finite_inputs
import proofs.«141019_g22874995818703_feedfinal_596_25_alg».proof.Proof.Gen.KernelIdeal.Value
import proofs.«141019_g22874995818703_feedfinal_596_25_alg».proof.Proof.Gen.ReferenceIdeal.Run
import proofs.«141019_g22874995818703_feedfinal_596_25_alg».proof.Proof.Gen.ReferenceIdeal.Read
import proofs.«141019_g22874995818703_feedfinal_596_25_alg».proof.Proof.KernelValue
import proofs.«141019_g22874995818703_feedfinal_596_25_alg».proof.Proof.RefValue
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the projected output and the new hidden state of
    the specification. -/
theorem algebraic : Cert.algebraic_KernelIdeal_ReferenceIdeal := by
  intro m ρ m' ρ' _ hagree
  refine ⟨fun c => Cert.KernelIdeal.KernelValue.outSpec m c, fun c => Cert.KernelIdeal.KernelValue.hnSpec m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v44_eq, Cert.ReferenceIdeal.RefValue.out_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    rfl
  · refine (Cert.ReferenceIdeal.Read.val_main_v39_eq _ _ _ _ _ _).trans ?_
    rw [Cert.ReferenceIdeal.RefValue.hn_eq,
      (hagree c).1, (hagree c).2.1, (hagree c).2.2.1, (hagree c).2.2.2.1, (hagree c).2.2.2.2.1, (hagree c).2.2.2.2.2.1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
